-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x512 : Shape := ⟨3, ![2, 64, 512]⟩
abbrev S_ : Shape := ⟨0, ![]⟩

class Facts : Prop where
  bcast_S_S2x64x512 : S_.BroadcastsInDim S2x64x512 (![] : Fin 0 → Fin S2x64x512.rank)
  reducesTo_S2x64x512_S_d0_1_2 : S2x64x512.ReducesTo [0, 1, 2] S_
  h_S_ : 0 < S_.numel

variable [Facts]

def fn {F : FTy → Type} [FloatOps F] (main_arg0 : FVec F S2x64x512 .f32) : IVec S_ 1 :=
  let main_v0 : FVec F S2x64x512 .f32 := Host.absf main_arg0
  let main_cst : FVec F S_ .f32 := constant S_ .f32 0x7F800000#32
  let main_v1 : FVec F S2x64x512 .f32 := broadcastInDim S2x64x512 ![] bcast_S_S2x64x512 main_cst
  let main_v2 : IVec S2x64x512 1 := cmpf .olt main_v0 main_v1
  let main_c : IVec S_ 1 := constantI S_ 1 1#1
  let main_v3 : IVec S_ 1 := (fun x v => Host.reduce IntOp.andi x v reducesTo_S2x64x512_S_d0_1_2 h_S_) main_v2 main_c
  main_v3
-- ==== Kernel.lean ====
abbrev S2x64x512 : Shape := ⟨3, ![2, 64, 512]⟩
abbrev S_ : Shape := ⟨0, ![]⟩
abbrev S2x64x767 : Shape := ⟨3, ![2, 64, 767]⟩
abbrev S2x512x64x256 : Shape := ⟨4, ![2, 512, 64, 256]⟩
abbrev S2x128x64x128 : Shape := ⟨4, ![2, 128, 64, 128]⟩
abbrev S2x64x255 : Shape := ⟨3, ![2, 64, 255]⟩
abbrev S2x64x128 : Shape := ⟨3, ![2, 64, 128]⟩
abbrev S2x1x64x128 : Shape := ⟨4, ![2, 1, 64, 128]⟩
abbrev S2x64x1535 : Shape := ⟨3, ![2, 64, 1535]⟩
abbrev S2x512x64x1024 : Shape := ⟨4, ![2, 512, 64, 1024]⟩
abbrev S2x64x1023 : Shape := ⟨3, ![2, 64, 1023]⟩
abbrev S2x512x64x512 : Shape := ⟨4, ![2, 512, 64, 512]⟩

abbrev nBuf : Space → Nat
  | .hbm => 17
  | .vmem => 12
  | .smem => 0
  | _ => 0

abbrev bufTy : (tb : Table) → Fin (tcTables nBuf tb) → BufTy
  | .hbm, ⟨0, _⟩ => ⟨S2x64x512, .f32⟩
  | .hbm, ⟨1, _⟩ => ⟨S_, .i32⟩
  | .hbm, ⟨2, _⟩ => ⟨S_, .f32⟩
  | .hbm, ⟨3, _⟩ => ⟨S2x64x767, .f32⟩
  | .hbm, ⟨4, _⟩ => ⟨S2x512x64x256, .f32⟩
  | .hbm, ⟨5, _⟩ => ⟨S_, .i32⟩
  | .hbm, ⟨6, _⟩ => ⟨S_, .f32⟩
  | .hbm, ⟨7, _⟩ => ⟨S2x64x1535, .f32⟩
  | .hbm, ⟨8, _⟩ => ⟨S2x512x64x1024, .f32⟩
  | .hbm, ⟨9, _⟩ => ⟨S_, .i32⟩
  | .hbm, ⟨10, _⟩ => ⟨S_, .f32⟩
  | .hbm, ⟨11, _⟩ => ⟨S2x64x1023, .f32⟩
  | .hbm, ⟨12, _⟩ => ⟨S2x512x64x512, .f32⟩
  | .hbm, ⟨13, _⟩ => ⟨S_, .i32⟩
  | .hbm, ⟨14, _⟩ => ⟨S_, .f32⟩
  | .hbm, ⟨15, _⟩ => ⟨S2x64x1023, .f32⟩
  | .hbm, ⟨16, _⟩ => ⟨S2x512x64x512, .f32⟩
  | .local _ .vmem, ⟨0, _⟩ => ⟨S2x64x767, .f32⟩
  | .local _ .vmem, ⟨1, _⟩ => ⟨S2x128x64x128, .f32⟩
  | .local _ .vmem, ⟨2, _⟩ => ⟨S2x128x64x128, .f32⟩
  | .local _ .vmem, ⟨3, _⟩ => ⟨S2x64x1535, .f32⟩
  | .local _ .vmem, ⟨4, _⟩ => ⟨S2x128x64x128, .f32⟩
  | .local _ .vmem, ⟨5, _⟩ => ⟨S2x128x64x128, .f32⟩
  | .local _ .vmem, ⟨6, _⟩ => ⟨S2x64x1023, .f32⟩
  | .local _ .vmem, ⟨7, _⟩ => ⟨S2x128x64x128, .f32⟩
  | .local _ .vmem, ⟨8, _⟩ => ⟨S2x128x64x128, .f32⟩
  | .local _ .vmem, ⟨9, _⟩ => ⟨S2x64x1023, .f32⟩
  | .local _ .vmem, ⟨10, _⟩ => ⟨S2x128x64x128, .f32⟩
  | .local _ .vmem, ⟨11, _⟩ => ⟨S2x128x64x128, .f32⟩
  | _, _ => ⟨S2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call1_v0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call2_v0 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_call3_v0 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg1_1 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg1_1 : Ref sig .tc := ⟨.vmem, 11, rfl⟩
abbrev cc0_sem0_0 : DmaSem sig := 0
abbrev cc0_sem1_0 : DmaSem sig := 1
abbrev cc0_sem1_1 : DmaSem sig := 2
abbrev cc1_sem0_0 : DmaSem sig := 3
abbrev cc1_sem1_0 : DmaSem sig := 4
abbrev cc1_sem1_1 : DmaSem sig := 5
abbrev cc2_sem0_0 : DmaSem sig := 6
abbrev cc2_sem1_0 : DmaSem sig := 7
abbrev cc2_sem1_1 : DmaSem sig := 8
abbrev cc3_sem0_0 : DmaSem sig := 9
abbrev cc3_sem1_0 : DmaSem sig := 10
abbrev cc3_sem1_1 : DmaSem sig := 11

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c128_i32_0 : BitVec 32 := 128#32
  let v1 : BitVec 32 := Scalar.muli arg1 c128_i32_0
  let v2 : BitVec 32 := Scalar.addi v0 v1
  v2
def k0_off1 (i : grid0.Coords) : Fin 3 → Nat :=
  let c0 : Index := 0#32
  let c0_1 : Index := 0#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c128_i32_0 : BitVec 32 := 128#32
  let v1 : BitVec 32 := Scalar.muli arg1 c128_i32_0
  let v2 : BitVec 32 := Scalar.addi v0 v1
  let v3 : BitVec 32 := v2
  let v4 : Index := Scalar.indexCast v3
  ![0, 0, v4.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 1 → Memref sig .tc .vmem S2x64x767 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 8], ![false, false]⟩

def k1_mult1 (i : grid1.Coords) : BitVec 32 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c128_i32_0 : BitVec 32 := 128#32
  let v1 : BitVec 32 := Scalar.muli arg1 c128_i32_0
  let v2 : BitVec 32 := Scalar.addi v0 v1
  v2
def k1_off1 (i : grid1.Coords) : Fin 3 → Nat :=
  let c0 : Index := 0#32
  let c0_1 : Index := 0#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c128_i32_0 : BitVec 32 := 128#32
  let v1 : BitVec 32 := Scalar.muli arg1 c128_i32_0
  let v2 : BitVec 32 := Scalar.addi v0 v1
  let v3 : BitVec 32 := v2
  let v4 : Index := Scalar.indexCast v3
  ![0, 0, v4.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage1_0 : Fin 1 → Memref sig .tc .vmem S2x64x1535 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2x128x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![4, 4], ![false, false]⟩

def k2_mult1 (i : grid2.Coords) : BitVec 32 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c128_i32_0 : BitVec 32 := 128#32
  let v1 : BitVec 32 := Scalar.muli arg1 c128_i32_0
  let v2 : BitVec 32 := Scalar.addi v0 v1
  v2
def k2_off1 (i : grid2.Coords) : Fin 3 → Nat :=
  let c0 : Index := 0#32
  let c0_1 : Index := 0#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c128_i32_0 : BitVec 32 := 128#32
  let v1 : BitVec 32 := Scalar.muli arg1 c128_i32_0
  let v2 : BitVec 32 := Scalar.addi v0 v1
  let v3 : BitVec 32 := v2
  let v4 : Index := Scalar.indexCast v3
  ![0, 0, v4.toNat]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage2_0 : Fin 1 → Memref sig .tc .vmem S2x64x1023 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S2x128x64x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![4, 4], ![false, false]⟩

def k3_mult1 (i : grid3.Coords) : BitVec 32 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c128_i32_0 : BitVec 32 := 128#32
  let v1 : BitVec 32 := Scalar.muli arg1 c128_i32_0
  let v2 : BitVec 32 := Scalar.addi v0 v1
  v2
def k3_off1 (i : grid3.Coords) : Fin 3 → Nat :=
  let c0 : Index := 0#32
  let c0_1 : Index := 0#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c128_i32_0 : BitVec 32 := 128#32
  let v1 : BitVec 32 := Scalar.muli arg1 c128_i32_0
  let v2 : BitVec 32 := Scalar.addi v0 v1
  let v3 : BitVec 32 := v2
  let v4 : Index := Scalar.indexCast v3
  ![0, 0, v4.toNat]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage3_0 : Fin 1 → Memref sig .tc .vmem S2x64x1023 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S2x128x64x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

class Facts₀ : Prop where
  pads_S2x64x512_S2x64x767_000_000_1281270 : S2x64x512.Pads (![0, 0, 128] : Fin 3 → Nat) ![0, 0, 127] ![0, 0, 0] S2x64x767
  h_S_ : 0 < S_.numel
  h_S2x64x255 : 0 < S2x64x255.numel
  shapeCasts_S2x64x255_S2x64x255 : S2x64x255.ShapeCasts S2x64x255
  slices_S2x64x255_o0_0_0_S2x64x128 : S2x64x255.Slices ![0, 0, 0] S2x64x128
  shapeCasts_S2x64x128_S2x1x64x128 : S2x64x128.ShapeCasts S2x1x64x128
  inb_S2x128x64x128_S2x1x64x128_0_0_0_0 : ∀ a, (![0, 0, 0, 0] : Fin 4 → Nat) a + S2x1x64x128.size a ≤ S2x128x64x128.size a
  h_S2x1x64x128 : 0 < S2x1x64x128.numel
  slices_S2x64x255_o0_0_1_S2x64x128 : S2x64x255.Slices ![0, 0, 1] S2x64x128
  inb_S2x128x64x128_S2x1x64x128_0_1_0_0 : ∀ a, (![0, 1, 0, 0] : Fin 4 → Nat) a + S2x1x64x128.size a ≤ S2x128x64x128.size a
  slices_S2x64x255_o0_0_2_S2x64x128 : S2x64x255.Slices ![0, 0, 2] S2x64x128
  inb_S2x128x64x128_S2x1x64x128_0_2_0_0 : ∀ a, (![0, 2, 0, 0] : Fin 4 → Nat) a + S2x1x64x128.size a ≤ S2x128x64x128.size a
  slices_S2x64x255_o0_0_3_S2x64x128 : S2x64x255.Slices ![0, 0, 3] S2x64x128
  inb_S2x128x64x128_S2x1x64x128_0_3_0_0 : ∀ a, (![0, 3, 0, 0] : Fin 4 → Nat) a + S2x1x64x128.size a ≤ S2x128x64x128.size a
  slices_S2x64x255_o0_0_4_S2x64x128 : S2x64x255.Slices ![0, 0, 4] S2x64x128
  inb_S2x128x64x128_S2x1x64x128_0_4_0_0 : ∀ a, (![0, 4, 0, 0] : Fin 4 → Nat) a + S2x1x64x128.size a ≤ S2x128x64x128.size a
  slices_S2x64x255_o0_0_5_S2x64x128 : S2x64x255.Slices ![0, 0, 5] S2x64x128
  inb_S2x128x64x128_S2x1x64x128_0_5_0_0 : ∀ a, (![0, 5, 0, 0] : Fin 4 → Nat) a + S2x1x64x128.size a ≤ S2x128x64x128.size a
  slices_S2x64x255_o0_0_6_S2x64x128 : S2x64x255.Slices ![0, 0, 6] S2x64x128
  inb_S2x128x64x128_S2x1x64x128_0_6_0_0 : ∀ a, (![0, 6, 0, 0] : Fin 4 → Nat) a + S2x1x64x128.size a ≤ S2x128x64x128.size a
  slices_S2x64x255_o0_0_7_S2x64x128 : S2x64x255.Slices ![0, 0, 7] S2x64x128
  inb_S2x128x64x128_S2x1x64x128_0_7_0_0 : ∀ a, (![0, 7, 0, 0] : Fin 4 → Nat) a + S2x1x64x128.size a ≤ S2x128x64x128.size a
  slices_S2x64x255_o0_0_8_S2x64x128 : S2x64x255.Slices ![0, 0, 8] S2x64x128
  inb_S2x128x64x128_S2x1x64x128_0_8_0_0 : ∀ a, (![0, 8, 0, 0] : Fin 4 → Nat) a + S2x1x64x128.size a ≤ S2x128x64x128.size a
  slices_S2x64x255_o0_0_9_S2x64x128 : S2x64x255.Slices ![0, 0, 9] S2x64x128
  inb_S2x128x64x128_S2x1x64x128_0_9_0_0 : ∀ a, (![0, 9, 0, 0] : Fin 4 → Nat) a + S2x1x64x128.size a ≤ S2x128x64x128.size a
  slices_S2x64x255_o0_0_10_S2x64x128 : S2x64x255.Slices ![0, 0, 10] S2x64x128
  inb_S2x128x64x128_S2x1x64x128_0_10_0_0 : ∀ a, (![0, 10, 0, 0] : Fin 4 → Nat) a + S2x1x64x128.size a ≤ S2x128x64x128.size a
  slices_S2x64x255_o0_0_11_S2x64x128 : S2x64x255.Slices ![0, 0, 11] S2x64x128
  inb_S2x128x64x128_S2x1x64x128_0_11_0_0 : ∀ a, (![0, 11, 0, 0] : Fin 4 → Nat) a + S2x1x64x128.size a ≤ S2x128x64x128.size a
  slices_S2x64x255_o0_0_12_S2x64x128 : S2x64x255.Slices ![0, 0, 12] S2x64x128
  inb_S2x128x64x128_S2x1x64x128_0_12_0_0 : ∀ a, (![0, 12, 0, 0] : Fin 4 → Nat) a + S2x1x64x128.size a ≤ S2x128x64x128.size a
  slices_S2x64x255_o0_0_13_S2x64x128 : S2x64x255.Slices ![0, 0, 13] S2x64x128
  inb_S2x128x64x128_S2x1x64x128_0_13_0_0 : ∀ a, (![0, 13, 0, 0] : Fin 4 → Nat) a + S2x1x64x128.size a ≤ S2x128x64x128.size a
  slices_S2x64x255_o0_0_14_S2x64x128 : S2x64x255.Slices ![0, 0, 14] S2x64x128
  inb_S2x128x64x128_S2x1x64x128_0_14_0_0 : ∀ a, (![0, 14, 0, 0] : Fin 4 → Nat) a + S2x1x64x128.size a ≤ S2x128x64x128.size a
  slices_S2x64x255_o0_0_15_S2x64x128 : S2x64x255.Slices ![0, 0, 15] S2x64x128
  inb_S2x128x64x128_S2x1x64x128_0_15_0_0 : ∀ a, (![0, 15, 0, 0] : Fin 4 → Nat) a + S2x1x64x128.size a ≤ S2x128x64x128.size a
  slices_S2x64x255_o0_0_16_S2x64x128 : S2x64x255.Slices ![0, 0, 16] S2x64x128
  inb_S2x128x64x128_S2x1x64x128_0_16_0_0 : ∀ a, (![0, 16, 0, 0] : Fin 4 → Nat) a + S2x1x64x128.size a ≤ S2x128x64x128.size a
  slices_S2x64x255_o0_0_17_S2x64x128 : S2x64x255.Slices ![0, 0, 17] S2x64x128
  inb_S2x128x64x128_S2x1x64x128_0_17_0_0 : ∀ a, (![0, 17, 0, 0] : Fin 4 → Nat) a + S2x1x64x128.size a ≤ S2x128x64x128.size a
  slices_S2x64x255_o0_0_18_S2x64x128 : S2x64x255.Slices ![0, 0, 18] S2x64x128
  inb_S2x128x64x128_S2x1x64x128_0_18_0_0 : ∀ a, (![0, 18, 0, 0] : Fin 4 → Nat) a + S2x1x64x128.size a ≤ S2x128x64x128.size a
  slices_S2x64x255_o0_0_19_S2x64x128 : S2x64x255.Slices ![0, 0, 19] S2x64x128
  inb_S2x128x64x128_S2x1x64x128_0_19_0_0 : ∀ a, (![0, 19, 0, 0] : Fin 4 → Nat) a + S2x1x64x128.size a ≤ S2x128x64x128.size a
  slices_S2x64x255_o0_0_20_S2x64x128 : S2x64x255.Slices ![0, 0, 20] S2x64x128
  inb_S2x128x64x128_S2x1x64x128_0_20_0_0 : ∀ a, (![0, 20, 0, 0] : Fin 4 → Nat) a + S2x1x64x128.size a ≤ S2x128x64x128.size a
  slices_S2x64x255_o0_0_21_S2x64x128 : S2x64x255.Slices ![0, 0, 21] S2x64x128
  inb_S2x128x64x128_S2x1x64x128_0_21_0_0 : ∀ a, (![0, 21, 0, 0] : Fin 4 → Nat) a + S2x1x64x128.size a ≤ S2x128x64x128.size a
  slices_S2x64x255_o0_0_22_S2x64x128 : S2x64x255.Slices ![0, 0, 22] S2x64x128
  inb_S2x128x64x128_S2x1x64x128_0_22_0_0 : ∀ a, (![0, 22, 0, 0] : Fin 4 → Nat) a + S2x1x64x128.size a ≤ S2x128x64x128.size a
  slices_S2x64x255_o0_0_23_S2x64x128 : S2x64x255.Slices ![0, 0, 23] S2x64x128
  inb_S2x128x64x128_S2x1x64x128_0_23_0_0 : ∀ a, (![0, 23, 0, 0] : Fin 4 → Nat) a + S2x1x64x128.size a ≤ S2x128x64x128.size a
  slices_S2x64x255_o0_0_24_S2x64x128 : S2x64x255.Slices ![0, 0, 24] S2x64x128
  inb_S2x128x64x128_S2x1x64x128_0_24_0_0 : ∀ a, (![0, 24, 0, 0] : Fin 4 → Nat) a + S2x1x64x128.size a ≤ S2x128x64x128.size a
  slices_S2x64x255_o0_0_25_S2x64x128 : S2x64x255.Slices ![0, 0, 25] S2x64x128
  inb_S2x128x64x128_S2x1x64x128_0_25_0_0 : ∀ a, (![0, 25, 0, 0] : Fin 4 → Nat) a + S2x1x64x128.size a ≤ S2x128x64x128.size a
  slices_S2x64x255_o0_0_26_S2x64x128 : S2x64x255.Slices ![0, 0, 26] S2x64x128
  inb_S2x128x64x128_S2x1x64x128_0_26_0_0 : ∀ a, (![0, 26, 0, 0] : Fin 4 → Nat) a + S2x1x64x128.size a ≤ S2x128x64x128.size a
  slices_S2x64x255_o0_0_27_S2x64x128 : S2x64x255.Slices ![0, 0, 27] S2x64x128
  inb_S2x128x64x128_S2x1x64x128_0_27_0_0 : ∀ a, (![0, 27, 0, 0] : Fin 4 → Nat) a + S2x1x64x128.size a ≤ S2x128x64x128.size a
  slices_S2x64x255_o0_0_28_S2x64x128 : S2x64x255.Slices ![0, 0, 28] S2x64x128
  inb_S2x128x64x128_S2x1x64x128_0_28_0_0 : ∀ a, (![0, 28, 0, 0] : Fin 4 → Nat) a + S2x1x64x128.size a ≤ S2x128x64x128.size a
  slices_S2x64x255_o0_0_29_S2x64x128 : S2x64x255.Slices ![0, 0, 29] S2x64x128
  inb_S2x128x64x128_S2x1x64x128_0_29_0_0 : ∀ a, (![0, 29, 0, 0] : Fin 4 → Nat) a + S2x1x64x128.size a ≤ S2x128x64x128.size a
  slices_S2x64x255_o0_0_30_S2x64x128 : S2x64x255.Slices ![0, 0, 30] S2x64x128
  inb_S2x128x64x128_S2x1x64x128_0_30_0_0 : ∀ a, (![0, 30, 0, 0] : Fin 4 → Nat) a + S2x1x64x128.size a ≤ S2x128x64x128.size a
  slices_S2x64x255_o0_0_31_S2x64x128 : S2x64x255.Slices ![0, 0, 31] S2x64x128
  inb_S2x128x64x128_S2x1x64x128_0_31_0_0 : ∀ a, (![0, 31, 0, 0] : Fin 4 → Nat) a + S2x1x64x128.size a ≤ S2x128x64x128.size a
  slices_S2x64x255_o0_0_32_S2x64x128 : S2x64x255.Slices ![0, 0, 32] S2x64x128
  inb_S2x128x64x128_S2x1x64x128_0_32_0_0 : ∀ a, (![0, 32, 0, 0] : Fin 4 → Nat) a + S2x1x64x128.size a ≤ S2x128x64x128.size a
  slices_S2x64x255_o0_0_33_S2x64x128 : S2x64x255.Slices ![0, 0, 33] S2x64x128
  inb_S2x128x64x128_S2x1x64x128_0_33_0_0 : ∀ a, (![0, 33, 0, 0] : Fin 4 → Nat) a + S2x1x64x128.size a ≤ S2x128x64x128.size a
  slices_S2x64x255_o0_0_34_S2x64x128 : S2x64x255.Slices ![0, 0, 34] S2x64x128
  inb_S2x128x64x128_S2x1x64x128_0_34_0_0 : ∀ a, (![0, 34, 0, 0] : Fin 4 → Nat) a + S2x1x64x128.size a ≤ S2x128x64x128.size a
  slices_S2x64x255_o0_0_35_S2x64x128 : S2x64x255.Slices ![0, 0, 35] S2x64x128
  inb_S2x128x64x128_S2x1x64x128_0_35_0_0 : ∀ a, (![0, 35, 0, 0] : Fin 4 → Nat) a + S2x1x64x128.size a ≤ S2x128x64x128.size a
  slices_S2x64x255_o0_0_36_S2x64x128 : S2x64x255.Slices ![0, 0, 36] S2x64x128
  inb_S2x128x64x128_S2x1x64x128_0_36_0_0 : ∀ a, (![0, 36, 0, 0] : Fin 4 → Nat) a + S2x1x64x128.size a ≤ S2x128x64x128.size a
  slices_S2x64x255_o0_0_37_S2x64x128 : S2x64x255.Slices ![0, 0, 37] S2x64x128
  inb_S2x128x64x128_S2x1x64x128_0_37_0_0 : ∀ a, (![0, 37, 0, 0] : Fin 4 → Nat) a + S2x1x64x128.size a ≤ S2x128x64x128.size a
  slices_S2x64x255_o0_0_38_S2x64x128 : S2x64x255.Slices ![0, 0, 38] S2x64x128
  inb_S2x128x64x128_S2x1x64x128_0_38_0_0 : ∀ a, (![0, 38, 0, 0] : Fin 4 → Nat) a + S2x1x64x128.size a ≤ S2x128x64x128.size a
  slices_S2x64x255_o0_0_39_S2x64x128 : S2x64x255.Slices ![0, 0, 39] S2x64x128
  inb_S2x128x64x128_S2x1x64x128_0_39_0_0 : ∀ a, (![0, 39, 0, 0] : Fin 4 → Nat) a + S2x1x64x128.size a ≤ S2x128x64x128.size a
  slices_S2x64x255_o0_0_40_S2x64x128 : S2x64x255.Slices ![0, 0, 40] S2x64x128
  inb_S2x128x64x128_S2x1x64x128_0_40_0_0 : ∀ a, (![0, 40, 0, 0] : Fin 4 → Nat) a + S2x1x64x128.size a ≤ S2x128x64x128.size a
  slices_S2x64x255_o0_0_41_S2x64x128 : S2x64x255.Slices ![0, 0, 41] S2x64x128
  inb_S2x128x64x128_S2x1x64x128_0_41_0_0 : ∀ a, (![0, 41, 0, 0] : Fin 4 → Nat) a + S2x1x64x128.size a ≤ S2x128x64x128.size a
  slices_S2x64x255_o0_0_42_S2x64x128 : S2x64x255.Slices ![0, 0, 42] S2x64x128
  inb_S2x128x64x128_S2x1x64x128_0_42_0_0 : ∀ a, (![0, 42, 0, 0] : Fin 4 → Nat) a + S2x1x64x128.size a ≤ S2x128x64x128.size a
  slices_S2x64x255_o0_0_43_S2x64x128 : S2x64x255.Slices ![0, 0, 43] S2x64x128
  inb_S2x128x64x128_S2x1x64x128_0_43_0_0 : ∀ a, (![0, 43, 0, 0] : Fin 4 → Nat) a + S2x1x64x128.size a ≤ S2x128x64x128.size a
  slices_S2x64x255_o0_0_44_S2x64x128 : S2x64x255.Slices ![0, 0, 44] S2x64x128
  inb_S2x128x64x128_S2x1x64x128_0_44_0_0 : ∀ a, (![0, 44, 0, 0] : Fin 4 → Nat) a + S2x1x64x128.size a ≤ S2x128x64x128.size a
  slices_S2x64x255_o0_0_45_S2x64x128 : S2x64x255.Slices ![0, 0, 45] S2x64x128
  inb_S2x128x64x128_S2x1x64x128_0_45_0_0 : ∀ a, (![0, 45, 0, 0] : Fin 4 → Nat) a + S2x1x64x128.size a ≤ S2x128x64x128.size a
  slices_S2x64x255_o0_0_46_S2x64x128 : S2x64x255.Slices ![0, 0, 46] S2x64x128
  inb_S2x128x64x128_S2x1x64x128_0_46_0_0 : ∀ a, (![0, 46, 0, 0] : Fin 4 → Nat) a + S2x1x64x128.size a ≤ S2x128x64x128.size a
  slices_S2x64x255_o0_0_47_S2x64x128 : S2x64x255.Slices ![0, 0, 47] S2x64x128
  inb_S2x128x64x128_S2x1x64x128_0_47_0_0 : ∀ a, (![0, 47, 0, 0] : Fin 4 → Nat) a + S2x1x64x128.size a ≤ S2x128x64x128.size a
  slices_S2x64x255_o0_0_48_S2x64x128 : S2x64x255.Slices ![0, 0, 48] S2x64x128
  inb_S2x128x64x128_S2x1x64x128_0_48_0_0 : ∀ a, (![0, 48, 0, 0] : Fin 4 → Nat) a + S2x1x64x128.size a ≤ S2x128x64x128.size a
  slices_S2x64x255_o0_0_49_S2x64x128 : S2x64x255.Slices ![0, 0, 49] S2x64x128
  inb_S2x128x64x128_S2x1x64x128_0_49_0_0 : ∀ a, (![0, 49, 0, 0] : Fin 4 → Nat) a + S2x1x64x128.size a ≤ S2x128x64x128.size a
  slices_S2x64x255_o0_0_50_S2x64x128 : S2x64x255.Slices ![0, 0, 50] S2x64x128
  inb_S2x128x64x128_S2x1x64x128_0_50_0_0 : ∀ a, (![0, 50, 0, 0] : Fin 4 → Nat) a + S2x1x64x128.size a ≤ S2x128x64x128.size a
  slices_S2x64x255_o0_0_51_S2x64x128 : S2x64x255.Slices ![0, 0, 51] S2x64x128
  inb_S2x128x64x128_S2x1x64x128_0_51_0_0 : ∀ a, (![0, 51, 0, 0] : Fin 4 → Nat) a + S2x1x64x128.size a ≤ S2x128x64x128.size a
  slices_S2x64x255_o0_0_52_S2x64x128 : S2x64x255.Slices ![0, 0, 52] S2x64x128
  inb_S2x128x64x128_S2x1x64x128_0_52_0_0 : ∀ a, (![0, 52, 0, 0] : Fin 4 → Nat) a + S2x1x64x128.size a ≤ S2x128x64x128.size a
  slices_S2x64x255_o0_0_53_S2x64x128 : S2x64x255.Slices ![0, 0, 53] S2x64x128
  inb_S2x128x64x128_S2x1x64x128_0_53_0_0 : ∀ a, (![0, 53, 0, 0] : Fin 4 → Nat) a + S2x1x64x128.size a ≤ S2x128x64x128.size a
  slices_S2x64x255_o0_0_54_S2x64x128 : S2x64x255.Slices ![0, 0, 54] S2x64x128
  inb_S2x128x64x128_S2x1x64x128_0_54_0_0 : ∀ a, (![0, 54, 0, 0] : Fin 4 → Nat) a + S2x1x64x128.size a ≤ S2x128x64x128.size a
  slices_S2x64x255_o0_0_55_S2x64x128 : S2x64x255.Slices ![0, 0, 55] S2x64x128
  inb_S2x128x64x128_S2x1x64x128_0_55_0_0 : ∀ a, (![0, 55, 0, 0] : Fin 4 → Nat) a + S2x1x64x128.size a ≤ S2x128x64x128.size a
  slices_S2x64x255_o0_0_56_S2x64x128 : S2x64x255.Slices ![0, 0, 56] S2x64x128
  inb_S2x128x64x128_S2x1x64x128_0_56_0_0 : ∀ a, (![0, 56, 0, 0] : Fin 4 → Nat) a + S2x1x64x128.size a ≤ S2x128x64x128.size a
  slices_S2x64x255_o0_0_57_S2x64x128 : S2x64x255.Slices ![0, 0, 57] S2x64x128
  inb_S2x128x64x128_S2x1x64x128_0_57_0_0 : ∀ a, (![0, 57, 0, 0] : Fin 4 → Nat) a + S2x1x64x128.size a ≤ S2x128x64x128.size a
  slices_S2x64x255_o0_0_58_S2x64x128 : S2x64x255.Slices ![0, 0, 58] S2x64x128
  inb_S2x128x64x128_S2x1x64x128_0_58_0_0 : ∀ a, (![0, 58, 0, 0] : Fin 4 → Nat) a + S2x1x64x128.size a ≤ S2x128x64x128.size a
  slices_S2x64x255_o0_0_59_S2x64x128 : S2x64x255.Slices ![0, 0, 59] S2x64x128
  inb_S2x128x64x128_S2x1x64x128_0_59_0_0 : ∀ a, (![0, 59, 0, 0] : Fin 4 → Nat) a + S2x1x64x128.size a ≤ S2x128x64x128.size a
  slices_S2x64x255_o0_0_60_S2x64x128 : S2x64x255.Slices ![0, 0, 60] S2x64x128
  inb_S2x128x64x128_S2x1x64x128_0_60_0_0 : ∀ a, (![0, 60, 0, 0] : Fin 4 → Nat) a + S2x1x64x128.size a ≤ S2x128x64x128.size a
  slices_S2x64x255_o0_0_61_S2x64x128 : S2x64x255.Slices ![0, 0, 61] S2x64x128
  inb_S2x128x64x128_S2x1x64x128_0_61_0_0 : ∀ a, (![0, 61, 0, 0] : Fin 4 → Nat) a + S2x1x64x128.size a ≤ S2x128x64x128.size a
  slices_S2x64x255_o0_0_62_S2x64x128 : S2x64x255.Slices ![0, 0, 62] S2x64x128
  inb_S2x128x64x128_S2x1x64x128_0_62_0_0 : ∀ a, (![0, 62, 0, 0] : Fin 4 → Nat) a + S2x1x64x128.size a ≤ S2x128x64x128.size a
  slices_S2x64x255_o0_0_63_S2x64x128 : S2x64x255.Slices ![0, 0, 63] S2x64x128
  inb_S2x128x64x128_S2x1x64x128_0_63_0_0 : ∀ a, (![0, 63, 0, 0] : Fin 4 → Nat) a + S2x1x64x128.size a ≤ S2x128x64x128.size a
  slices_S2x64x255_o0_0_64_S2x64x128 : S2x64x255.Slices ![0, 0, 64] S2x64x128
  inb_S2x128x64x128_S2x1x64x128_0_64_0_0 : ∀ a, (![0, 64, 0, 0] : Fin 4 → Nat) a + S2x1x64x128.size a ≤ S2x128x64x128.size a
  slices_S2x64x255_o0_0_65_S2x64x128 : S2x64x255.Slices ![0, 0, 65] S2x64x128
  inb_S2x128x64x128_S2x1x64x128_0_65_0_0 : ∀ a, (![0, 65, 0, 0] : Fin 4 → Nat) a + S2x1x64x128.size a ≤ S2x128x64x128.size a
  slices_S2x64x255_o0_0_66_S2x64x128 : S2x64x255.Slices ![0, 0, 66] S2x64x128
  inb_S2x128x64x128_S2x1x64x128_0_66_0_0 : ∀ a, (![0, 66, 0, 0] : Fin 4 → Nat) a + S2x1x64x128.size a ≤ S2x128x64x128.size a
  slices_S2x64x255_o0_0_67_S2x64x128 : S2x64x255.Slices ![0, 0, 67] S2x64x128
  inb_S2x128x64x128_S2x1x64x128_0_67_0_0 : ∀ a, (![0, 67, 0, 0] : Fin 4 → Nat) a + S2x1x64x128.size a ≤ S2x128x64x128.size a
  slices_S2x64x255_o0_0_68_S2x64x128 : S2x64x255.Slices ![0, 0, 68] S2x64x128
  inb_S2x128x64x128_S2x1x64x128_0_68_0_0 : ∀ a, (![0, 68, 0, 0] : Fin 4 → Nat) a + S2x1x64x128.size a ≤ S2x128x64x128.size a
  slices_S2x64x255_o0_0_69_S2x64x128 : S2x64x255.Slices ![0, 0, 69] S2x64x128
  inb_S2x128x64x128_S2x1x64x128_0_69_0_0 : ∀ a, (![0, 69, 0, 0] : Fin 4 → Nat) a + S2x1x64x128.size a ≤ S2x128x64x128.size a
  slices_S2x64x255_o0_0_70_S2x64x128 : S2x64x255.Slices ![0, 0, 70] S2x64x128
  inb_S2x128x64x128_S2x1x64x128_0_70_0_0 : ∀ a, (![0, 70, 0, 0] : Fin 4 → Nat) a + S2x1x64x128.size a ≤ S2x128x64x128.size a
  slices_S2x64x255_o0_0_71_S2x64x128 : S2x64x255.Slices ![0, 0, 71] S2x64x128
  inb_S2x128x64x128_S2x1x64x128_0_71_0_0 : ∀ a, (![0, 71, 0, 0] : Fin 4 → Nat) a + S2x1x64x128.size a ≤ S2x128x64x128.size a
  slices_S2x64x255_o0_0_72_S2x64x128 : S2x64x255.Slices ![0, 0, 72] S2x64x128
  inb_S2x128x64x128_S2x1x64x128_0_72_0_0 : ∀ a, (![0, 72, 0, 0] : Fin 4 → Nat) a + S2x1x64x128.size a ≤ S2x128x64x128.size a
  slices_S2x64x255_o0_0_73_S2x64x128 : S2x64x255.Slices ![0, 0, 73] S2x64x128
  inb_S2x128x64x128_S2x1x64x128_0_73_0_0 : ∀ a, (![0, 73, 0, 0] : Fin 4 → Nat) a + S2x1x64x128.size a ≤ S2x128x64x128.size a
  slices_S2x64x255_o0_0_74_S2x64x128 : S2x64x255.Slices ![0, 0, 74] S2x64x128
  inb_S2x128x64x128_S2x1x64x128_0_74_0_0 : ∀ a, (![0, 74, 0, 0] : Fin 4 → Nat) a + S2x1x64x128.size a ≤ S2x128x64x128.size a
  slices_S2x64x255_o0_0_75_S2x64x128 : S2x64x255.Slices ![0, 0, 75] S2x64x128
  inb_S2x128x64x128_S2x1x64x128_0_75_0_0 : ∀ a, (![0, 75, 0, 0] : Fin 4 → Nat) a + S2x1x64x128.size a ≤ S2x128x64x128.size a
  slices_S2x64x255_o0_0_76_S2x64x128 : S2x64x255.Slices ![0, 0, 76] S2x64x128
  inb_S2x128x64x128_S2x1x64x128_0_76_0_0 : ∀ a, (![0, 76, 0, 0] : Fin 4 → Nat) a + S2x1x64x128.size a ≤ S2x128x64x128.size a
  slices_S2x64x255_o0_0_77_S2x64x128 : S2x64x255.Slices ![0, 0, 77] S2x64x128
  inb_S2x128x64x128_S2x1x64x128_0_77_0_0 : ∀ a, (![0, 77, 0, 0] : Fin 4 → Nat) a + S2x1x64x128.size a ≤ S2x128x64x128.size a
  slices_S2x64x255_o0_0_78_S2x64x128 : S2x64x255.Slices ![0, 0, 78] S2x64x128
  inb_S2x128x64x128_S2x1x64x128_0_78_0_0 : ∀ a, (![0, 78, 0, 0] : Fin 4 → Nat) a + S2x1x64x128.size a ≤ S2x128x64x128.size a
  slices_S2x64x255_o0_0_79_S2x64x128 : S2x64x255.Slices ![0, 0, 79] S2x64x128
  inb_S2x128x64x128_S2x1x64x128_0_79_0_0 : ∀ a, (![0, 79, 0, 0] : Fin 4 → Nat) a + S2x1x64x128.size a ≤ S2x128x64x128.size a
  slices_S2x64x255_o0_0_80_S2x64x128 : S2x64x255.Slices ![0, 0, 80] S2x64x128
  inb_S2x128x64x128_S2x1x64x128_0_80_0_0 : ∀ a, (![0, 80, 0, 0] : Fin 4 → Nat) a + S2x1x64x128.size a ≤ S2x128x64x128.size a
  slices_S2x64x255_o0_0_81_S2x64x128 : S2x64x255.Slices ![0, 0, 81] S2x64x128
  inb_S2x128x64x128_S2x1x64x128_0_81_0_0 : ∀ a, (![0, 81, 0, 0] : Fin 4 → Nat) a + S2x1x64x128.size a ≤ S2x128x64x128.size a
  slices_S2x64x255_o0_0_82_S2x64x128 : S2x64x255.Slices ![0, 0, 82] S2x64x128
  inb_S2x128x64x128_S2x1x64x128_0_82_0_0 : ∀ a, (![0, 82, 0, 0] : Fin 4 → Nat) a + S2x1x64x128.size a ≤ S2x128x64x128.size a
  slices_S2x64x255_o0_0_83_S2x64x128 : S2x64x255.Slices ![0, 0, 83] S2x64x128
  inb_S2x128x64x128_S2x1x64x128_0_83_0_0 : ∀ a, (![0, 83, 0, 0] : Fin 4 → Nat) a + S2x1x64x128.size a ≤ S2x128x64x128.size a
  slices_S2x64x255_o0_0_84_S2x64x128 : S2x64x255.Slices ![0, 0, 84] S2x64x128
  inb_S2x128x64x128_S2x1x64x128_0_84_0_0 : ∀ a, (![0, 84, 0, 0] : Fin 4 → Nat) a + S2x1x64x128.size a ≤ S2x128x64x128.size a
  slices_S2x64x255_o0_0_85_S2x64x128 : S2x64x255.Slices ![0, 0, 85] S2x64x128
  inb_S2x128x64x128_S2x1x64x128_0_85_0_0 : ∀ a, (![0, 85, 0, 0] : Fin 4 → Nat) a + S2x1x64x128.size a ≤ S2x128x64x128.size a
  slices_S2x64x255_o0_0_86_S2x64x128 : S2x64x255.Slices ![0, 0, 86] S2x64x128
  inb_S2x128x64x128_S2x1x64x128_0_86_0_0 : ∀ a, (![0, 86, 0, 0] : Fin 4 → Nat) a + S2x1x64x128.size a ≤ S2x128x64x128.size a
  slices_S2x64x255_o0_0_87_S2x64x128 : S2x64x255.Slices ![0, 0, 87] S2x64x128
  inb_S2x128x64x128_S2x1x64x128_0_87_0_0 : ∀ a, (![0, 87, 0, 0] : Fin 4 → Nat) a + S2x1x64x128.size a ≤ S2x128x64x128.size a
  slices_S2x64x255_o0_0_88_S2x64x128 : S2x64x255.Slices ![0, 0, 88] S2x64x128
  inb_S2x128x64x128_S2x1x64x128_0_88_0_0 : ∀ a, (![0, 88, 0, 0] : Fin 4 → Nat) a + S2x1x64x128.size a ≤ S2x128x64x128.size a
  slices_S2x64x255_o0_0_89_S2x64x128 : S2x64x255.Slices ![0, 0, 89] S2x64x128
  inb_S2x128x64x128_S2x1x64x128_0_89_0_0 : ∀ a, (![0, 89, 0, 0] : Fin 4 → Nat) a + S2x1x64x128.size a ≤ S2x128x64x128.size a
  slices_S2x64x255_o0_0_90_S2x64x128 : S2x64x255.Slices ![0, 0, 90] S2x64x128
  inb_S2x128x64x128_S2x1x64x128_0_90_0_0 : ∀ a, (![0, 90, 0, 0] : Fin 4 → Nat) a + S2x1x64x128.size a ≤ S2x128x64x128.size a
  slices_S2x64x255_o0_0_91_S2x64x128 : S2x64x255.Slices ![0, 0, 91] S2x64x128
  inb_S2x128x64x128_S2x1x64x128_0_91_0_0 : ∀ a, (![0, 91, 0, 0] : Fin 4 → Nat) a + S2x1x64x128.size a ≤ S2x128x64x128.size a
  slices_S2x64x255_o0_0_92_S2x64x128 : S2x64x255.Slices ![0, 0, 92] S2x64x128
  inb_S2x128x64x128_S2x1x64x128_0_92_0_0 : ∀ a, (![0, 92, 0, 0] : Fin 4 → Nat) a + S2x1x64x128.size a ≤ S2x128x64x128.size a
  slices_S2x64x255_o0_0_93_S2x64x128 : S2x64x255.Slices ![0, 0, 93] S2x64x128
  inb_S2x128x64x128_S2x1x64x128_0_93_0_0 : ∀ a, (![0, 93, 0, 0] : Fin 4 → Nat) a + S2x1x64x128.size a ≤ S2x128x64x128.size a
  slices_S2x64x255_o0_0_94_S2x64x128 : S2x64x255.Slices ![0, 0, 94] S2x64x128
  inb_S2x128x64x128_S2x1x64x128_0_94_0_0 : ∀ a, (![0, 94, 0, 0] : Fin 4 → Nat) a + S2x1x64x128.size a ≤ S2x128x64x128.size a
  slices_S2x64x255_o0_0_95_S2x64x128 : S2x64x255.Slices ![0, 0, 95] S2x64x128
  inb_S2x128x64x128_S2x1x64x128_0_95_0_0 : ∀ a, (![0, 95, 0, 0] : Fin 4 → Nat) a + S2x1x64x128.size a ≤ S2x128x64x128.size a
  slices_S2x64x255_o0_0_96_S2x64x128 : S2x64x255.Slices ![0, 0, 96] S2x64x128
  inb_S2x128x64x128_S2x1x64x128_0_96_0_0 : ∀ a, (![0, 96, 0, 0] : Fin 4 → Nat) a + S2x1x64x128.size a ≤ S2x128x64x128.size a
  slices_S2x64x255_o0_0_97_S2x64x128 : S2x64x255.Slices ![0, 0, 97] S2x64x128
  inb_S2x128x64x128_S2x1x64x128_0_97_0_0 : ∀ a, (![0, 97, 0, 0] : Fin 4 → Nat) a + S2x1x64x128.size a ≤ S2x128x64x128.size a
  slices_S2x64x255_o0_0_98_S2x64x128 : S2x64x255.Slices ![0, 0, 98] S2x64x128
  inb_S2x128x64x128_S2x1x64x128_0_98_0_0 : ∀ a, (![0, 98, 0, 0] : Fin 4 → Nat) a + S2x1x64x128.size a ≤ S2x128x64x128.size a
  slices_S2x64x255_o0_0_99_S2x64x128 : S2x64x255.Slices ![0, 0, 99] S2x64x128
  inb_S2x128x64x128_S2x1x64x128_0_99_0_0 : ∀ a, (![0, 99, 0, 0] : Fin 4 → Nat) a + S2x1x64x128.size a ≤ S2x128x64x128.size a
  slices_S2x64x255_o0_0_100_S2x64x128 : S2x64x255.Slices ![0, 0, 100] S2x64x128
  inb_S2x128x64x128_S2x1x64x128_0_100_0_0 : ∀ a, (![0, 100, 0, 0] : Fin 4 → Nat) a + S2x1x64x128.size a ≤ S2x128x64x128.size a
  slices_S2x64x255_o0_0_101_S2x64x128 : S2x64x255.Slices ![0, 0, 101] S2x64x128
  inb_S2x128x64x128_S2x1x64x128_0_101_0_0 : ∀ a, (![0, 101, 0, 0] : Fin 4 → Nat) a + S2x1x64x128.size a ≤ S2x128x64x128.size a
  slices_S2x64x255_o0_0_102_S2x64x128 : S2x64x255.Slices ![0, 0, 102] S2x64x128
  inb_S2x128x64x128_S2x1x64x128_0_102_0_0 : ∀ a, (![0, 102, 0, 0] : Fin 4 → Nat) a + S2x1x64x128.size a ≤ S2x128x64x128.size a
  slices_S2x64x255_o0_0_103_S2x64x128 : S2x64x255.Slices ![0, 0, 103] S2x64x128
  inb_S2x128x64x128_S2x1x64x128_0_103_0_0 : ∀ a, (![0, 103, 0, 0] : Fin 4 → Nat) a + S2x1x64x128.size a ≤ S2x128x64x128.size a
  slices_S2x64x255_o0_0_104_S2x64x128 : S2x64x255.Slices ![0, 0, 104] S2x64x128
  inb_S2x128x64x128_S2x1x64x128_0_104_0_0 : ∀ a, (![0, 104, 0, 0] : Fin 4 → Nat) a + S2x1x64x128.size a ≤ S2x128x64x128.size a
  slices_S2x64x255_o0_0_105_S2x64x128 : S2x64x255.Slices ![0, 0, 105] S2x64x128
  inb_S2x128x64x128_S2x1x64x128_0_105_0_0 : ∀ a, (![0, 105, 0, 0] : Fin 4 → Nat) a + S2x1x64x128.size a ≤ S2x128x64x128.size a
  slices_S2x64x255_o0_0_106_S2x64x128 : S2x64x255.Slices ![0, 0, 106] S2x64x128
  inb_S2x128x64x128_S2x1x64x128_0_106_0_0 : ∀ a, (![0, 106, 0, 0] : Fin 4 → Nat) a + S2x1x64x128.size a ≤ S2x128x64x128.size a
  slices_S2x64x255_o0_0_107_S2x64x128 : S2x64x255.Slices ![0, 0, 107] S2x64x128
  inb_S2x128x64x128_S2x1x64x128_0_107_0_0 : ∀ a, (![0, 107, 0, 0] : Fin 4 → Nat) a + S2x1x64x128.size a ≤ S2x128x64x128.size a
  slices_S2x64x255_o0_0_108_S2x64x128 : S2x64x255.Slices ![0, 0, 108] S2x64x128
  inb_S2x128x64x128_S2x1x64x128_0_108_0_0 : ∀ a, (![0, 108, 0, 0] : Fin 4 → Nat) a + S2x1x64x128.size a ≤ S2x128x64x128.size a
  slices_S2x64x255_o0_0_109_S2x64x128 : S2x64x255.Slices ![0, 0, 109] S2x64x128
  inb_S2x128x64x128_S2x1x64x128_0_109_0_0 : ∀ a, (![0, 109, 0, 0] : Fin 4 → Nat) a + S2x1x64x128.size a ≤ S2x128x64x128.size a
  slices_S2x64x255_o0_0_110_S2x64x128 : S2x64x255.Slices ![0, 0, 110] S2x64x128
  inb_S2x128x64x128_S2x1x64x128_0_110_0_0 : ∀ a, (![0, 110, 0, 0] : Fin 4 → Nat) a + S2x1x64x128.size a ≤ S2x128x64x128.size a
  slices_S2x64x255_o0_0_111_S2x64x128 : S2x64x255.Slices ![0, 0, 111] S2x64x128
  inb_S2x128x64x128_S2x1x64x128_0_111_0_0 : ∀ a, (![0, 111, 0, 0] : Fin 4 → Nat) a + S2x1x64x128.size a ≤ S2x128x64x128.size a
  slices_S2x64x255_o0_0_112_S2x64x128 : S2x64x255.Slices ![0, 0, 112] S2x64x128
  inb_S2x128x64x128_S2x1x64x128_0_112_0_0 : ∀ a, (![0, 112, 0, 0] : Fin 4 → Nat) a + S2x1x64x128.size a ≤ S2x128x64x128.size a
  slices_S2x64x255_o0_0_113_S2x64x128 : S2x64x255.Slices ![0, 0, 113] S2x64x128
  inb_S2x128x64x128_S2x1x64x128_0_113_0_0 : ∀ a, (![0, 113, 0, 0] : Fin 4 → Nat) a + S2x1x64x128.size a ≤ S2x128x64x128.size a
  slices_S2x64x255_o0_0_114_S2x64x128 : S2x64x255.Slices ![0, 0, 114] S2x64x128
  inb_S2x128x64x128_S2x1x64x128_0_114_0_0 : ∀ a, (![0, 114, 0, 0] : Fin 4 → Nat) a + S2x1x64x128.size a ≤ S2x128x64x128.size a
  slices_S2x64x255_o0_0_115_S2x64x128 : S2x64x255.Slices ![0, 0, 115] S2x64x128
  inb_S2x128x64x128_S2x1x64x128_0_115_0_0 : ∀ a, (![0, 115, 0, 0] : Fin 4 → Nat) a + S2x1x64x128.size a ≤ S2x128x64x128.size a
  slices_S2x64x255_o0_0_116_S2x64x128 : S2x64x255.Slices ![0, 0, 116] S2x64x128
  inb_S2x128x64x128_S2x1x64x128_0_116_0_0 : ∀ a, (![0, 116, 0, 0] : Fin 4 → Nat) a + S2x1x64x128.size a ≤ S2x128x64x128.size a
  slices_S2x64x255_o0_0_117_S2x64x128 : S2x64x255.Slices ![0, 0, 117] S2x64x128
  inb_S2x128x64x128_S2x1x64x128_0_117_0_0 : ∀ a, (![0, 117, 0, 0] : Fin 4 → Nat) a + S2x1x64x128.size a ≤ S2x128x64x128.size a
  slices_S2x64x255_o0_0_118_S2x64x128 : S2x64x255.Slices ![0, 0, 118] S2x64x128
  inb_S2x128x64x128_S2x1x64x128_0_118_0_0 : ∀ a, (![0, 118, 0, 0] : Fin 4 → Nat) a + S2x1x64x128.size a ≤ S2x128x64x128.size a
  slices_S2x64x255_o0_0_119_S2x64x128 : S2x64x255.Slices ![0, 0, 119] S2x64x128
  inb_S2x128x64x128_S2x1x64x128_0_119_0_0 : ∀ a, (![0, 119, 0, 0] : Fin 4 → Nat) a + S2x1x64x128.size a ≤ S2x128x64x128.size a
  slices_S2x64x255_o0_0_120_S2x64x128 : S2x64x255.Slices ![0, 0, 120] S2x64x128
  inb_S2x128x64x128_S2x1x64x128_0_120_0_0 : ∀ a, (![0, 120, 0, 0] : Fin 4 → Nat) a + S2x1x64x128.size a ≤ S2x128x64x128.size a
  slices_S2x64x255_o0_0_121_S2x64x128 : S2x64x255.Slices ![0, 0, 121] S2x64x128
  inb_S2x128x64x128_S2x1x64x128_0_121_0_0 : ∀ a, (![0, 121, 0, 0] : Fin 4 → Nat) a + S2x1x64x128.size a ≤ S2x128x64x128.size a
  slices_S2x64x255_o0_0_122_S2x64x128 : S2x64x255.Slices ![0, 0, 122] S2x64x128
  inb_S2x128x64x128_S2x1x64x128_0_122_0_0 : ∀ a, (![0, 122, 0, 0] : Fin 4 → Nat) a + S2x1x64x128.size a ≤ S2x128x64x128.size a
  slices_S2x64x255_o0_0_123_S2x64x128 : S2x64x255.Slices ![0, 0, 123] S2x64x128
  inb_S2x128x64x128_S2x1x64x128_0_123_0_0 : ∀ a, (![0, 123, 0, 0] : Fin 4 → Nat) a + S2x1x64x128.size a ≤ S2x128x64x128.size a
  slices_S2x64x255_o0_0_124_S2x64x128 : S2x64x255.Slices ![0, 0, 124] S2x64x128
  inb_S2x128x64x128_S2x1x64x128_0_124_0_0 : ∀ a, (![0, 124, 0, 0] : Fin 4 → Nat) a + S2x1x64x128.size a ≤ S2x128x64x128.size a
  slices_S2x64x255_o0_0_125_S2x64x128 : S2x64x255.Slices ![0, 0, 125] S2x64x128
  inb_S2x128x64x128_S2x1x64x128_0_125_0_0 : ∀ a, (![0, 125, 0, 0] : Fin 4 → Nat) a + S2x1x64x128.size a ≤ S2x128x64x128.size a
  slices_S2x64x255_o0_0_126_S2x64x128 : S2x64x255.Slices ![0, 0, 126] S2x64x128
  inb_S2x128x64x128_S2x1x64x128_0_126_0_0 : ∀ a, (![0, 126, 0, 0] : Fin 4 → Nat) a + S2x1x64x128.size a ≤ S2x128x64x128.size a
  slices_S2x64x255_o0_0_127_S2x64x128 : S2x64x255.Slices ![0, 0, 127] S2x64x128
  inb_S2x128x64x128_S2x1x64x128_0_127_0_0 : ∀ a, (![0, 127, 0, 0] : Fin 4 → Nat) a + S2x1x64x128.size a ≤ S2x128x64x128.size a
  pads_S2x64x512_S2x64x1535_000_000_5125110 : S2x64x512.Pads (![0, 0, 512] : Fin 3 → Nat) ![0, 0, 511] ![0, 0, 0] S2x64x1535
  pads_S2x64x512_S2x64x1023_000_000_2562550 : S2x64x512.Pads (![0, 0, 256] : Fin 3 → Nat) ![0, 0, 255] ![0, 0, 0] S2x64x1023
  hrank0 : 0 < grid0.rank
  k0_mult1_dvd : ∀ i : grid0.Coords, 128 ∣ (k0_mult1 i).toNat
  k0_off1_inb : ∀ i : grid0.Coords, ∀ a, (k0_off1 i) a + S2x64x255.size a ≤ S2x64x767.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x64x767.size a ≤ S2x64x767.size a
  hwx0_0 : ∀ i : grid0.Coords, EltTy.bits .f32 = 32 ∨ (Rect.block (s := S2x64x767) S2x64x767.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x64x128.size a ≤ S2x512x64x256.size a
  hwx0_1 : ∀ i : grid0.Coords, EltTy.bits .f32 = 32 ∨ (Rect.block (s := S2x512x64x256) S2x128x64x128.size (cc0_transform_1 i) (hinb0_1 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S2x64x255.size a ≤ S2x64x1535.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x64x1535.size a ≤ S2x64x1535.size a
  hwx1_0 : ∀ i : grid1.Coords, EltTy.bits .f32 = 32 ∨ (Rect.block (s := S2x64x1535) S2x64x1535.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x128x64x128.size a ≤ S2x512x64x1024.size a
  hwx1_1 : ∀ i : grid1.Coords, EltTy.bits .f32 = 32 ∨ (Rect.block (s := S2x512x64x1024) S2x128x64x128.size (cc1_transform_1 i) (hinb1_1 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S2x64x255.size a ≤ S2x64x1023.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2x64x1023.size a ≤ S2x64x1023.size a
  hwx2_0 : ∀ i : grid2.Coords, EltTy.bits .f32 = 32 ∨ (Rect.block (s := S2x64x1023) S2x64x1023.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x128x64x128.size a ≤ S2x512x64x512.size a
  hwx2_1 : ∀ i : grid2.Coords, EltTy.bits .f32 = 32 ∨ (Rect.block (s := S2x512x64x512) S2x128x64x128.size (cc2_transform_1 i) (hinb2_1 i)).WholeWords (EltTy.packing .f32)
  hrank3 : 0 < grid3.rank
  k3_mult1_dvd : ∀ i : grid3.Coords, 128 ∣ (k3_mult1 i).toNat
  k3_off1_inb : ∀ i : grid3.Coords, ∀ a, (k3_off1 i) a + S2x64x255.size a ≤ S2x64x1023.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2x64x1023.size a ≤ S2x64x1023.size a
  hwx3_0 : ∀ i : grid3.Coords, EltTy.bits .f32 = 32 ∨ (Rect.block (s := S2x64x1023) S2x64x1023.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2x128x64x128.size a ≤ S2x512x64x512.size a
  hwx3_1 : ∀ i : grid3.Coords, EltTy.bits .f32 = 32 ∨ (Rect.block (s := S2x512x64x512) S2x128x64x128.size (cc3_transform_1 i) (hinb3_1 i)).WholeWords (EltTy.packing .f32)

variable [Facts₀]

abbrev win0_0 : Pipeline.Window sig grid0 :=
  Pipeline.Window.ofSpec (Memref.whole main_v0) S2x64x767.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x128x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S2x64x1535.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2x128x64x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S2x64x1023.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2x128x64x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v6) S2x64x1023.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2x128x64x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S2x64x512 : Shape := ⟨3, ![2, 64, 512]⟩
abbrev S512 : Shape := ⟨1, ![512]⟩
abbrev S512x1 : Shape := ⟨2, ![512, 1]⟩
abbrev S_ : Shape := ⟨0, ![]⟩
abbrev S256 : Shape := ⟨1, ![256]⟩
abbrev S1x256 : Shape := ⟨2, ![1, 256]⟩
abbrev S512x256 : Shape := ⟨2, ![512, 256]⟩
abbrev S512x256x1 : Shape := ⟨3, ![512, 256, 1]⟩
abbrev S2x64x512x256 : Shape := ⟨4, ![2, 64, 512, 256]⟩
abbrev S1x1x512x256 : Shape := ⟨4, ![1, 1, 512, 256]⟩
abbrev S2x512x64x256 : Shape := ⟨4, ![2, 512, 64, 256]⟩
abbrev S1024 : Shape := ⟨1, ![1024]⟩
abbrev S1x1024 : Shape := ⟨2, ![1, 1024]⟩
abbrev S512x1024 : Shape := ⟨2, ![512, 1024]⟩
abbrev S512x1024x1 : Shape := ⟨3, ![512, 1024, 1]⟩
abbrev S2x64x512x1024 : Shape := ⟨4, ![2, 64, 512, 1024]⟩
abbrev S1x1x512x1024 : Shape := ⟨4, ![1, 1, 512, 1024]⟩
abbrev S2x512x64x1024 : Shape := ⟨4, ![2, 512, 64, 1024]⟩
abbrev S1x512 : Shape := ⟨2, ![1, 512]⟩
abbrev S512x512 : Shape := ⟨2, ![512, 512]⟩
abbrev S512x512x1 : Shape := ⟨3, ![512, 512, 1]⟩
abbrev S2x64x512x512 : Shape := ⟨4, ![2, 64, 512, 512]⟩
abbrev S1x1x512x512 : Shape := ⟨4, ![1, 1, 512, 512]⟩
abbrev S2x512x64x512 : Shape := ⟨4, ![2, 512, 64, 512]⟩

abbrev nBuf : Space → Nat
  | .hbm => 161
  | .vmem => 0
  | .smem => 0
  | _ => 0

abbrev hbmTy0_0 (i : Nat) : BufTy := match i % 128 with
  | 0 => ⟨S2x64x512, .f32⟩
  | 1 => ⟨S512, .i32⟩
  | 2 => ⟨S512x1, .i32⟩
  | 3 => ⟨S_, .i32⟩
  | 4 => ⟨S512x1, .i32⟩
  | 5 => ⟨S512x1, .i32⟩
  | 6 => ⟨S256, .i32⟩
  | 7 => ⟨S1x256, .i32⟩
  | 8 => ⟨S512x256, .i32⟩
  | 9 => ⟨S512x256, .i32⟩
  | 10 => ⟨S512x256, .i32⟩
  | 11 => ⟨S_, .i32⟩
  | 12 => ⟨S512x256, .i32⟩
  | 13 => ⟨S512x256, .i1⟩
  | 14 => ⟨S_, .i32⟩
  | 15 => ⟨S512x256, .i32⟩
  | 16 => ⟨S512x256, .i1⟩
  | 17 => ⟨S512x256, .i1⟩
  | 18 => ⟨S_, .i32⟩
  | 19 => ⟨S_, .i32⟩
  | 20 => ⟨S_, .i32⟩
  | 21 => ⟨S512x256, .i32⟩
  | 22 => ⟨S512x256, .i32⟩
  | 23 => ⟨S_, .i32⟩
  | 24 => ⟨S512x256, .i32⟩
  | 25 => ⟨S512x256, .i32⟩
  | 26 => ⟨S_, .i32⟩
  | 27 => ⟨S512x256, .i32⟩
  | 28 => ⟨S512x256, .i1⟩
  | 29 => ⟨S_, .i32⟩
  | 30 => ⟨S512x256, .i32⟩
  | 31 => ⟨S512x256, .i32⟩
  | 32 => ⟨S512x256, .i32⟩
  | 33 => ⟨S512x256x1, .i32⟩
  | 34 => ⟨S2x64x512x256, .f32⟩
  | 35 => ⟨S1x1x512x256, .i1⟩
  | 36 => ⟨S_, .f32⟩
  | 37 => ⟨S2x64x512x256, .i1⟩
  | 38 => ⟨S2x64x512x256, .f32⟩
  | 39 => ⟨S2x64x512x256, .f32⟩
  | 40 => ⟨S2x512x64x256, .f32⟩
  | 41 => ⟨S512, .i32⟩
  | 42 => ⟨S512x1, .i32⟩
  | 43 => ⟨S_, .i32⟩
  | 44 => ⟨S512x1, .i32⟩
  | 45 => ⟨S512x1, .i32⟩
  | 46 => ⟨S1024, .i32⟩
  | 47 => ⟨S1x1024, .i32⟩
  | 48 => ⟨S512x1024, .i32⟩
  | 49 => ⟨S512x1024, .i32⟩
  | 50 => ⟨S512x1024, .i32⟩
  | 51 => ⟨S_, .i32⟩
  | 52 => ⟨S512x1024, .i32⟩
  | 53 => ⟨S512x1024, .i1⟩
  | 54 => ⟨S_, .i32⟩
  | 55 => ⟨S512x1024, .i32⟩
  | 56 => ⟨S512x1024, .i1⟩
  | 57 => ⟨S512x1024, .i1⟩
  | 58 => ⟨S_, .i32⟩
  | 59 => ⟨S_, .i32⟩
  | 60 => ⟨S_, .i32⟩
  | 61 => ⟨S512x1024, .i32⟩
  | 62 => ⟨S512x1024, .i32⟩
  | 63 => ⟨S_, .i32⟩
  | 64 => ⟨S512x1024, .i32⟩
  | 65 => ⟨S512x1024, .i32⟩
  | 66 => ⟨S_, .i32⟩
  | 67 => ⟨S512x1024, .i32⟩
  | 68 => ⟨S512x1024, .i1⟩
  | 69 => ⟨S_, .i32⟩
  | 70 => ⟨S512x1024, .i32⟩
  | 71 => ⟨S512x1024, .i32⟩
  | 72 => ⟨S512x1024, .i32⟩
  | 73 => ⟨S512x1024x1, .i32⟩
  | 74 => ⟨S2x64x512x1024, .f32⟩
  | 75 => ⟨S1x1x512x1024, .i1⟩
  | 76 => ⟨S_, .f32⟩
  | 77 => ⟨S2x64x512x1024, .i1⟩
  | 78 => ⟨S2x64x512x1024, .f32⟩
  | 79 => ⟨S2x64x512x1024, .f32⟩
  | 80 => ⟨S2x512x64x1024, .f32⟩
  | 81 => ⟨S512, .i32⟩
  | 82 => ⟨S512x1, .i32⟩
  | 83 => ⟨S_, .i32⟩
  | 84 => ⟨S512x1, .i32⟩
  | 85 => ⟨S512x1, .i32⟩
  | 86 => ⟨S512, .i32⟩
  | 87 => ⟨S1x512, .i32⟩
  | 88 => ⟨S512x512, .i32⟩
  | 89 => ⟨S512x512, .i32⟩
  | 90 => ⟨S512x512, .i32⟩
  | 91 => ⟨S_, .i32⟩
  | 92 => ⟨S512x512, .i32⟩
  | 93 => ⟨S512x512, .i1⟩
  | 94 => ⟨S_, .i32⟩
  | 95 => ⟨S512x512, .i32⟩
  | 96 => ⟨S512x512, .i1⟩
  | 97 => ⟨S512x512, .i1⟩
  | 98 => ⟨S_, .i32⟩
  | 99 => ⟨S_, .i32⟩
  | 100 => ⟨S_, .i32⟩
  | 101 => ⟨S512x512, .i32⟩
  | 102 => ⟨S512x512, .i32⟩
  | 103 => ⟨S_, .i32⟩
  | 104 => ⟨S512x512, .i32⟩
  | 105 => ⟨S512x512, .i32⟩
  | 106 => ⟨S_, .i32⟩
  | 107 => ⟨S512x512, .i32⟩
  | 108 => ⟨S512x512, .i1⟩
  | 109 => ⟨S_, .i32⟩
  | 110 => ⟨S512x512, .i32⟩
  | 111 => ⟨S512x512, .i32⟩
  | 112 => ⟨S512x512, .i32⟩
  | 113 => ⟨S512x512x1, .i32⟩
  | 114 => ⟨S2x64x512x512, .f32⟩
  | 115 => ⟨S1x1x512x512, .i1⟩
  | 116 => ⟨S_, .f32⟩
  | 117 => ⟨S2x64x512x512, .i1⟩
  | 118 => ⟨S2x64x512x512, .f32⟩
  | 119 => ⟨S2x64x512x512, .f32⟩
  | 120 => ⟨S2x512x64x512, .f32⟩
  | 121 => ⟨S512, .i32⟩
  | 122 => ⟨S512x1, .i32⟩
  | 123 => ⟨S_, .i32⟩
  | 124 => ⟨S512x1, .i32⟩
  | 125 => ⟨S512x1, .i32⟩
  | 126 => ⟨S512, .i32⟩
  | 127 => ⟨S1x512, .i32⟩
  | _ => ⟨S2x64x512, .f32⟩

abbrev hbmTy0_1 (i : Nat) : BufTy := match i % 128 with
  | 0 => ⟨S512x512, .i32⟩
  | 1 => ⟨S512x512, .i32⟩
  | 2 => ⟨S512x512, .i32⟩
  | 3 => ⟨S_, .i32⟩
  | 4 => ⟨S512x512, .i32⟩
  | 5 => ⟨S512x512, .i1⟩
  | 6 => ⟨S_, .i32⟩
  | 7 => ⟨S512x512, .i32⟩
  | 8 => ⟨S512x512, .i1⟩
  | 9 => ⟨S512x512, .i1⟩
  | 10 => ⟨S_, .i32⟩
  | 11 => ⟨S_, .i32⟩
  | 12 => ⟨S_, .i32⟩
  | 13 => ⟨S512x512, .i32⟩
  | 14 => ⟨S512x512, .i32⟩
  | 15 => ⟨S_, .i32⟩
  | 16 => ⟨S512x512, .i32⟩
  | 17 => ⟨S512x512, .i32⟩
  | 18 => ⟨S_, .i32⟩
  | 19 => ⟨S512x512, .i32⟩
  | 20 => ⟨S512x512, .i1⟩
  | 21 => ⟨S_, .i32⟩
  | 22 => ⟨S512x512, .i32⟩
  | 23 => ⟨S512x512, .i32⟩
  | 24 => ⟨S512x512, .i32⟩
  | 25 => ⟨S512x512x1, .i32⟩
  | 26 => ⟨S2x64x512x512, .f32⟩
  | 27 => ⟨S1x1x512x512, .i1⟩
  | 28 => ⟨S_, .f32⟩
  | 29 => ⟨S2x64x512x512, .i1⟩
  | 30 => ⟨S2x64x512x512, .f32⟩
  | 31 => ⟨S2x64x512x512, .f32⟩
  | 32 => ⟨S2x512x64x512, .f32⟩
  | _ => ⟨S2x64x512, .f32⟩

abbrev hbmTy (i : Nat) : BufTy := match i / 128 with
  | 0 => hbmTy0_0 i
  | 1 => hbmTy0_1 i
  | _ => ⟨S2x64x512, .f32⟩

abbrev bufTy : (tb : Table) → Fin (tcTables nBuf tb) → BufTy
  | .hbm, ⟨i, _⟩ => hbmTy i
  | _, _ => ⟨S2x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_c_10 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_call3_v0 : Ref sig .tc := ⟨.hbm, 77, rfl⟩
abbrev main_call3_v1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_v59 : Ref sig .tc := ⟨.hbm, 92, rfl⟩
abbrev main_v60 : Ref sig .tc := ⟨.hbm, 93, rfl⟩
abbrev main_c_16 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_17 : Ref sig .tc := ⟨.hbm, 98, rfl⟩
abbrev main_c_18 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v64 : Ref sig .tc := ⟨.hbm, 105, rfl⟩
abbrev main_c_19 : Ref sig .tc := ⟨.hbm, 106, rfl⟩
abbrev main_v65 : Ref sig .tc := ⟨.hbm, 107, rfl⟩
abbrev main_v66 : Ref sig .tc := ⟨.hbm, 108, rfl⟩
abbrev main_c_20 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_21 : Ref sig .tc := ⟨.hbm, 116, rfl⟩
abbrev main_call5_v0 : Ref sig .tc := ⟨.hbm, 117, rfl⟩
abbrev main_call5_v1 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_22 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_23 : Ref sig .tc := ⟨.hbm, 131, rfl⟩
abbrev main_v84 : Ref sig .tc := ⟨.hbm, 132, rfl⟩
abbrev main_v85 : Ref sig .tc := ⟨.hbm, 133, rfl⟩
abbrev main_c_24 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_c_25 : Ref sig .tc := ⟨.hbm, 138, rfl⟩
abbrev main_c_26 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v89 : Ref sig .tc := ⟨.hbm, 145, rfl⟩
abbrev main_c_27 : Ref sig .tc := ⟨.hbm, 146, rfl⟩
abbrev main_v90 : Ref sig .tc := ⟨.hbm, 147, rfl⟩
abbrev main_v91 : Ref sig .tc := ⟨.hbm, 148, rfl⟩
abbrev main_c_28 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_29 : Ref sig .tc := ⟨.hbm, 156, rfl⟩
abbrev main_call7_v0 : Ref sig .tc := ⟨.hbm, 157, rfl⟩
abbrev main_call7_v1 : Ref sig .tc := ⟨.hbm, 158, rfl⟩
abbrev main_v98 : Ref sig .tc := ⟨.hbm, 159, rfl⟩
abbrev main_v99 : Ref sig .tc := ⟨.hbm, 160, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S_S512x1 : S_.BroadcastsInDim S512x1 (![] : Fin 0 → Fin S512x1.rank)
  bcast_S256_S1x256_1 : S256.BroadcastsInDim S1x256 (![1] : Fin 1 → Fin S1x256.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S512x256_S1x1x512x256_2_3 : S512x256.BroadcastsInDim S1x1x512x256 (![2, 3] : Fin 2 → Fin S1x1x512x256.rank)
  bcast_S1x1x512x256_S2x64x512x256_0_1_2_3 : S1x1x512x256.BroadcastsInDim S2x64x512x256 (![0, 1, 2, 3] : Fin 4 → Fin S2x64x512x256.rank)
  bcast_S_S2x64x512x256 : S_.BroadcastsInDim S2x64x512x256 (![] : Fin 0 → Fin S2x64x512x256.rank)
  transposes_S2x64x512x256_S2x512x64x256_0_2_1_3 : S2x64x512x256.Transposes [0, 2, 1, 3] S2x512x64x256
  bcast_S1024_S1x1024_1 : S1024.BroadcastsInDim S1x1024 (![1] : Fin 1 → Fin S1x1024.rank)
  bcast_S512x1_S512x1024_0_1 : S512x1.BroadcastsInDim S512x1024 (![0, 1] : Fin 2 → Fin S512x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  bcast_S512x1024_S512x1024x1_0_1 : S512x1024.BroadcastsInDim S512x1024x1 (![0, 1] : Fin 2 → Fin S512x1024x1.rank)
  bcast_S512x1024_S1x1x512x1024_2_3 : S512x1024.BroadcastsInDim S1x1x512x1024 (![2, 3] : Fin 2 → Fin S1x1x512x1024.rank)
  bcast_S1x1x512x1024_S2x64x512x1024_0_1_2_3 : S1x1x512x1024.BroadcastsInDim S2x64x512x1024 (![0, 1, 2, 3] : Fin 4 → Fin S2x64x512x1024.rank)
  bcast_S_S2x64x512x1024 : S_.BroadcastsInDim S2x64x512x1024 (![] : Fin 0 → Fin S2x64x512x1024.rank)
  transposes_S2x64x512x1024_S2x512x64x1024_0_2_1_3 : S2x64x512x1024.Transposes [0, 2, 1, 3] S2x512x64x1024
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S1x1x512x512_2_3 : S512x512.BroadcastsInDim S1x1x512x512 (![2, 3] : Fin 2 → Fin S1x1x512x512.rank)
  bcast_S1x1x512x512_S2x64x512x512_0_1_2_3 : S1x1x512x512.BroadcastsInDim S2x64x512x512 (![0, 1, 2, 3] : Fin 4 → Fin S2x64x512x512.rank)
  bcast_S_S2x64x512x512 : S_.BroadcastsInDim S2x64x512x512 (![] : Fin 0 → Fin S2x64x512x512.rank)
  transposes_S2x64x512x512_S2x512x64x512_0_2_1_3 : S2x64x512x512.Transposes [0, 2, 1, 3] S2x512x64x512
  gather_S2x64x512_S512x256x1_S2x64x512x256_01_2_n_n_2_2_2641_wf : GatherDims.WF S2x64x512 S512x256x1 S2x64x512x256 [0, 1] [2] [] [2] [] 2 ![2, 64, 1]
  gather_S2x64x512_S512x1024x1_S2x64x512x1024_01_2_n_n_2_2_2641_wf : GatherDims.WF S2x64x512 S512x1024x1 S2x64x512x1024 [0, 1] [2] [] [2] [] 2 ![2, 64, 1]
  gather_S2x64x512_S512x512x1_S2x64x512x512_01_2_n_n_2_2_2641_wf : GatherDims.WF S2x64x512 S512x512x1 S2x64x512x512 [0, 1] [2] [] [2] [] 2 ![2, 64, 1]

variable [Facts₀]

def gather_S2x64x512_S512x256x1_S2x64x512x256_01_2_n_n_2_2_2641 : GatherDims S2x64x512 S512x256x1 S2x64x512x256 where
  offsetDims := [0, 1]
  collapsedSliceDims := [2]
  operandBatchingDims := []
  startIndicesBatchingDims := []
  startIndexMap := [2]
  indexVectorDim := 2
  sliceSizes := ![2, 64, 1]
  wf := gather_S2x64x512_S512x256x1_S2x64x512x256_01_2_n_n_2_2_2641_wf
def gather_S2x64x512_S512x1024x1_S2x64x512x1024_01_2_n_n_2_2_2641 : GatherDims S2x64x512 S512x1024x1 S2x64x512x1024 where
  offsetDims := [0, 1]
  collapsedSliceDims := [2]
  operandBatchingDims := []
  startIndicesBatchingDims := []
  startIndexMap := [2]
  indexVectorDim := 2
  sliceSizes := ![2, 64, 1]
  wf := gather_S2x64x512_S512x1024x1_S2x64x512x1024_01_2_n_n_2_2_2641_wf
def gather_S2x64x512_S512x512x1_S2x64x512x512_01_2_n_n_2_2_2641 : GatherDims S2x64x512 S512x512x1 S2x64x512x512 where
  offsetDims := [0, 1]
  collapsedSliceDims := [2]
  operandBatchingDims := []
  startIndicesBatchingDims := []
  startIndexMap := [2]
  indexVectorDim := 2
  sliceSizes := ![2, 64, 1]
  wf := gather_S2x64x512_S512x512x1_S2x64x512x512_01_2_n_n_2_2_2641_wf

class Facts : Prop extends Facts₀ where

variable [Facts]
-- ==== Proof.KernelFold.lean ====
/-
  The fold through @main's segments, read at the buffers the value needs.

  Before each window kernel the host pads the argument sequence with zeros (converted from the integer constant 0):
  that padded copy is what the region's input window reads (`padded_k`).  No later host operation and no later region
  writes a result array, so after the whole program each result array still holds what its own region's write-backs
  left in it.
-/
import proofs.«140231_j61091614819052_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Win

open Cert.KernelIdeal Cert.KernelIdeal.Gen

variable {F : FTy → Type} [FloatOps F]

variable (m : (ℓ : Loc nD τ sig) → Buf (Elt F) ℓ) (ρ : Dev nD → PrngReg)

/-! ## One step back through a stretch of host operations

Each stretch writes only its own result values: the constant stretch writes the integer constant, the padding stretch the
converted filling value and the padded copy.  Any other array is read, after the stretch, as before it. -/

private theorem W1_keep (c : Dev nD) (b : Ref sig .tc) (h : b ≠ main_c) :
    W1 m ρ c (Proc.devRef .tc b) = W0 m ρ c (Proc.devRef .tc b) :=
  StableHlo.nullary_result_ne _ _ _ _ h

private theorem W2_keep (c : Dev nD) (b : Ref sig .tc) (h₁ : b ≠ main_call0_v0) (h₂ : b ≠ main_v0) :
    W2 m ρ c (Proc.devRef .tc b) = W1 m ρ c (Proc.devRef .tc b) :=
  (StableHlo.binary_result_ne _ _ _ _ _ _ _ _ h₂).trans (StableHlo.unary_result_ne _ _ _ _ _ _ h₁)

private theorem W4_keep (c : Dev nD) (b : Ref sig .tc) (h : b ≠ main_c_0) :
    W4 m ρ c (Proc.devRef .tc b) = W3 m ρ c (Proc.devRef .tc b) :=
  StableHlo.nullary_result_ne _ _ _ _ h

private theorem W5_keep (c : Dev nD) (b : Ref sig .tc) (h₁ : b ≠ main_call1_v0) (h₂ : b ≠ main_v2) :
    W5 m ρ c (Proc.devRef .tc b) = W4 m ρ c (Proc.devRef .tc b) :=
  (StableHlo.binary_result_ne _ _ _ _ _ _ _ _ h₂).trans (StableHlo.unary_result_ne _ _ _ _ _ _ h₁)

private theorem W7_keep (c : Dev nD) (b : Ref sig .tc) (h : b ≠ main_c_1) :
    W7 m ρ c (Proc.devRef .tc b) = W6 m ρ c (Proc.devRef .tc b) :=
  StableHlo.nullary_result_ne _ _ _ _ h

private theorem W8_keep (c : Dev nD) (b : Ref sig .tc) (h₁ : b ≠ main_call2_v0) (h₂ : b ≠ main_v4) :
    W8 m ρ c (Proc.devRef .tc b) = W7 m ρ c (Proc.devRef .tc b) :=
  (StableHlo.binary_result_ne _ _ _ _ _ _ _ _ h₂).trans (StableHlo.unary_result_ne _ _ _ _ _ _ h₁)

private theorem W10_keep (c : Dev nD) (b : Ref sig .tc) (h : b ≠ main_c_2) :
    W10 m ρ c (Proc.devRef .tc b) = W9 m ρ c (Proc.devRef .tc b) :=
  StableHlo.nullary_result_ne _ _ _ _ h

private theorem W11_keep (c : Dev nD) (b : Ref sig .tc) (h₁ : b ≠ main_call3_v0) (h₂ : b ≠ main_v6) :
    W11 m ρ c (Proc.devRef .tc b) = W10 m ρ c (Proc.devRef .tc b) :=
  (StableHlo.binary_result_ne _ _ _ _ _ _ _ _ h₂).trans (StableHlo.unary_result_ne _ _ _ _ _ _ h₁)

/-! ## The argument sequence at each region's exit

No stretch and no region writes the argument, so after every region it is still the launch memory's. -/

private theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_keep m ρ c main_arg0 (by decide) (by decide)
    _ = W0 m ρ c (Proc.devRef .tc main_arg0) := W1_keep m ρ c main_arg0 (by decide)
    _ = m ((c : Thread nD τ).loc main_arg0) := rfl

private theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_keep m ρ c main_arg0 (by decide) (by decide)
    _ = W3 m ρ c (Proc.devRef .tc main_arg0) := W4_keep m ρ c main_arg0 (by decide)
    _ = m ((c : Thread nD τ).loc main_arg0) := W3_main_arg0 m ρ c

private theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_keep m ρ c main_arg0 (by decide) (by decide)
    _ = W6 m ρ c (Proc.devRef .tc main_arg0) := W7_keep m ρ c main_arg0 (by decide)
    _ = m ((c : Thread nD τ).loc main_arg0) := W6_main_arg0 m ρ c

/-- The padded sequence region 0 is given: 128 filling values in front of the 512 positions, 127 behind. -/
abbrev padded0 (c : Dev nD) : S2x64x767.Idx → Elt F .f32 :=
  pad S2x64x767 ![0, 0, 128] ![0, 0, 127] ![0, 0, 0] (m ((c : Thread nD τ).loc main_arg0) : S2x64x512.Idx → Elt F .f32)
    (sitofp .f32 (constantI S_ 32 0#32) : FVec F S_ .f32) pads_S2x64x512_S2x64x767_000_000_1281270 h_S_

/-- Region 0's input array, as the region finds it, is that padded sequence. -/
theorem V2_main_v0 (c : Dev nD) : (V2 m ρ c main_v0 : S2x64x767.Idx → Elt F .f32) = padded0 m c := by
  show StableHlo.after hostOps0_1 (StableHlo.after hostOps0 (W0 m ρ c)) (Proc.devRef .tc main_v0) = _
  after_results
  rfl

/-- After the whole program, result array 0 holds what region 0's write-backs left. -/
theorem W12_main_v1 (c : Dev nD) :
    W12 m ρ c (Proc.devRef .tc main_v1) = (dat0 (V2 m ρ) c).arrAt 1 cfg0.N :=
  calc W12 m ρ c (Proc.devRef .tc main_v1)
    _ = W11 m ρ c (Proc.devRef .tc main_v1) := W12_of_ne m ρ c main_v1 (by decide)
    _ = W10 m ρ c (Proc.devRef .tc main_v1) := W11_keep m ρ c main_v1 (by decide) (by decide)
    _ = W9 m ρ c (Proc.devRef .tc main_v1) := W10_keep m ρ c main_v1 (by decide)
    _ = W8 m ρ c (Proc.devRef .tc main_v1) := W9_of_ne m ρ c main_v1 (by decide)
    _ = W7 m ρ c (Proc.devRef .tc main_v1) := W8_keep m ρ c main_v1 (by decide) (by decide)
    _ = W6 m ρ c (Proc.devRef .tc main_v1) := W7_keep m ρ c main_v1 (by decide)
    _ = W5 m ρ c (Proc.devRef .tc main_v1) := W6_of_ne m ρ c main_v1 (by decide)
    _ = W4 m ρ c (Proc.devRef .tc main_v1) := W5_keep m ρ c main_v1 (by decide) (by decide)
    _ = W3 m ρ c (Proc.devRef .tc main_v1) := W4_keep m ρ c main_v1 (by decide)
    _ = (dat0 (V2 m ρ) c).arrAt 1 cfg0.N := W3_arr m ρ c 1

/-- The padded sequence region 1 is given: 512 filling values in front of the 512 positions, 511 behind. -/
abbrev padded1 (c : Dev nD) : S2x64x1535.Idx → Elt F .f32 :=
  pad S2x64x1535 ![0, 0, 512] ![0, 0, 511] ![0, 0, 0] (m ((c : Thread nD τ).loc main_arg0) : S2x64x512.Idx → Elt F .f32)
    (sitofp .f32 (constantI S_ 32 0#32) : FVec F S_ .f32) pads_S2x64x512_S2x64x1535_000_000_5125110 h_S_

/-- Region 1's input array, as the region finds it, is that padded sequence. -/
theorem V5_main_v2 (c : Dev nD) : (V5 m ρ c main_v2 : S2x64x1535.Idx → Elt F .f32) = padded1 m c := by
  show StableHlo.after hostOps1_1 (StableHlo.after hostOps1 (W3 m ρ c)) (Proc.devRef .tc main_v2) = _
  after_results
  show pad S2x64x1535 ![0, 0, 512] ![0, 0, 511] ![0, 0, 0]
      (W3 m ρ c (Proc.devRef .tc main_arg0) : S2x64x512.Idx → Elt F .f32)
      (sitofp .f32 (constantI S_ 32 0#32) : FVec F S_ .f32) pads_S2x64x512_S2x64x1535_000_000_5125110 h_S_ = _
  rw [W3_main_arg0 m ρ c]

/-- After the whole program, result array 1 holds what region 1's write-backs left. -/
theorem W12_main_v3 (c : Dev nD) :
    W12 m ρ c (Proc.devRef .tc main_v3) = (dat1 (V5 m ρ) c).arrAt 1 cfg1.N :=
  calc W12 m ρ c (Proc.devRef .tc main_v3)
    _ = W11 m ρ c (Proc.devRef .tc main_v3) := W12_of_ne m ρ c main_v3 (by decide)
    _ = W10 m ρ c (Proc.devRef .tc main_v3) := W11_keep m ρ c main_v3 (by decide) (by decide)
    _ = W9 m ρ c (Proc.devRef .tc main_v3) := W10_keep m ρ c main_v3 (by decide)
    _ = W8 m ρ c (Proc.devRef .tc main_v3) := W9_of_ne m ρ c main_v3 (by decide)
    _ = W7 m ρ c (Proc.devRef .tc main_v3) := W8_keep m ρ c main_v3 (by decide) (by decide)
    _ = W6 m ρ c (Proc.devRef .tc main_v3) := W7_keep m ρ c main_v3 (by decide)
    _ = (dat1 (V5 m ρ) c).arrAt 1 cfg1.N := W6_arr m ρ c 1

/-- The padded sequence region 2 is given: 256 filling values in front of the 512 positions, 255 behind. -/
abbrev padded2 (c : Dev nD) : S2x64x1023.Idx → Elt F .f32 :=
  pad S2x64x1023 ![0, 0, 256] ![0, 0, 255] ![0, 0, 0] (m ((c : Thread nD τ).loc main_arg0) : S2x64x512.Idx → Elt F .f32)
    (sitofp .f32 (constantI S_ 32 0#32) : FVec F S_ .f32) pads_S2x64x512_S2x64x1023_000_000_2562550 h_S_

/-- Region 2's input array, as the region finds it, is that padded sequence. -/
theorem V8_main_v4 (c : Dev nD) : (V8 m ρ c main_v4 : S2x64x1023.Idx → Elt F .f32) = padded2 m c := by
  show StableHlo.after hostOps2_1 (StableHlo.after hostOps2 (W6 m ρ c)) (Proc.devRef .tc main_v4) = _
  after_results
  show pad S2x64x1023 ![0, 0, 256] ![0, 0, 255] ![0, 0, 0]
      (W6 m ρ c (Proc.devRef .tc main_arg0) : S2x64x512.Idx → Elt F .f32)
      (sitofp .f32 (constantI S_ 32 0#32) : FVec F S_ .f32) pads_S2x64x512_S2x64x1023_000_000_2562550 h_S_ = _
  rw [W6_main_arg0 m ρ c]

/-- After the whole program, result array 2 holds what region 2's write-backs left. -/
theorem W12_main_v5 (c : Dev nD) :
    W12 m ρ c (Proc.devRef .tc main_v5) = (dat2 (V8 m ρ) c).arrAt 1 cfg2.N :=
  calc W12 m ρ c (Proc.devRef .tc main_v5)
    _ = W11 m ρ c (Proc.devRef .tc main_v5) := W12_of_ne m ρ c main_v5 (by decide)
    _ = W10 m ρ c (Proc.devRef .tc main_v5) := W11_keep m ρ c main_v5 (by decide) (by decide)
    _ = W9 m ρ c (Proc.devRef .tc main_v5) := W10_keep m ρ c main_v5 (by decide)
    _ = (dat2 (V8 m ρ) c).arrAt 1 cfg2.N := W9_arr m ρ c 1

/-- The padded sequence region 3 is given: 256 filling values in front of the 512 positions, 255 behind. -/
abbrev padded3 (c : Dev nD) : S2x64x1023.Idx → Elt F .f32 :=
  pad S2x64x1023 ![0, 0, 256] ![0, 0, 255] ![0, 0, 0] (m ((c : Thread nD τ).loc main_arg0) : S2x64x512.Idx → Elt F .f32)
    (sitofp .f32 (constantI S_ 32 0#32) : FVec F S_ .f32) pads_S2x64x512_S2x64x1023_000_000_2562550 h_S_

/-- Region 3's input array, as the region finds it, is that padded sequence. -/
theorem V11_main_v6 (c : Dev nD) : (V11 m ρ c main_v6 : S2x64x1023.Idx → Elt F .f32) = padded3 m c := by
  show StableHlo.after hostOps3_1 (StableHlo.after hostOps3 (W9 m ρ c)) (Proc.devRef .tc main_v6) = _
  after_results
  show pad S2x64x1023 ![0, 0, 256] ![0, 0, 255] ![0, 0, 0]
      (W9 m ρ c (Proc.devRef .tc main_arg0) : S2x64x512.Idx → Elt F .f32)
      (sitofp .f32 (constantI S_ 32 0#32) : FVec F S_ .f32) pads_S2x64x512_S2x64x1023_000_000_2562550 h_S_ = _
  rw [W9_main_arg0 m ρ c]

/-- After the whole program, result array 3 holds what region 3's write-backs left. -/
theorem W12_main_v7 (c : Dev nD) :
    W12 m ρ c (Proc.devRef .tc main_v7) = (dat3 (V11 m ρ) c).arrAt 1 cfg3.N :=
  W12_arr m ρ c 1

end Cert.KernelIdeal.Win

end
-- ==== Proof.KernelBlocks.lean ====
/-
  What one grid point of each window kernel leaves in its output block.

  Point (i, j) loads 255 consecutive positions of the padded sequence starting at 128·i + 128·j and stores, for each
  of the 128 rows r of the block, positions r … r + 127 of that load: so block entry (b, r, ch, q) is the padded
  sequence at (b, ch, 128·i + 128·j + r + q).
-/
import proofs.«140231_j61091614819052_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Win

open Cert.KernelIdeal Cert.KernelIdeal.Gen

variable {F : FTy → Type} [FloatOps F]

/-! ## One stored row, and the block as one function of the loaded window

The loaded window `v` has 255 positions on its last axis. Row `r` of the block is stored from positions
`r … r + 127` of it, reshaped from (b, ch, q) to (b, 0, ch, q). So at every entry (b, r, ch, q) the block holds
`v (b, ch, r + q)`. -/

section Rows
variable {α : Type}

/-- The position of the loaded window that block entry `y = (b, r, ch, q)` holds: (b, ch, r + q). -/
def winIdx (y : S2x128x64x128.Idx) : S2x64x255.Idx :=
  ix3 ⟨(y 0).val, by have := (y 0).isLt; exact this⟩ ⟨(y 2).val, by have := (y 2).isLt; exact this⟩
    ⟨(y 1).val + (y 3).val, by
      have h1 : (y 1).val < 128 := (y 1).isLt
      have h3 : (y 3).val < 128 := (y 3).isLt
      omega⟩

/-- Row `r`'s stored value at its local entry (b, 0, ch, q) is the window at (b, ch, r + q): the value the block's
    closed form `v ∘ winIdx` has at the entry (b, r, ch, q) the row's rectangle places it at. -/
theorem row_apply (r : Nat) (v : S2x64x255.Idx → α)
    (hs : S2x64x255.Slices ![0, 0, r] S2x64x128) (hc : S2x64x128.ShapeCasts S2x1x64x128)
    (hc' : S2x64x255.ShapeCasts S2x64x255)
    (inb : ∀ a, (![0, r, 0, 0] : Fin 4 → Nat) a + S2x1x64x128.size a ≤ S2x128x64x128.size a) (x : S2x1x64x128.Idx) :
    shapeCast S2x1x64x128 (extractStridedSlice S2x64x128 ![0, 0, r] (shapeCast S2x64x255 v hc') hs) hc x
      = v (winIdx ((Rect.unit (s := S2x128x64x128) ![0, r, 0, 0] S2x1x64x128.size inb).emb x)) := by
  have x0 : (x 0).val < 2 := (x 0).isLt
  have x1 : (x 1).val < 1 := (x 1).isLt
  have x2 : (x 2).val < 64 := (x 2).isLt
  have x3 : (x 3).val < 128 := (x 3).isLt
  rw [shapeCast_self]
  refine (shapeCast_apply _ hc x (ix3 ⟨(x 0).val, x0⟩ ⟨(x 2).val, x2⟩ ⟨(x 3).val, x3⟩) ?_).trans ?_
  · rw [Shape.rowMajor_val_three, Shape.rowMajor_val_four]
    show ((x 0).val * 64 + (x 2).val) * 128 + (x 3).val
      = (((x 0).val * 1 + (x 1).val) * 64 + (x 2).val) * 128 + (x 3).val
    omega
  · refine extractStridedSlice_apply _ v hs _ _ fun a => ?_
    match a with
    | ⟨0, _⟩ => show 0 + 1 * (x 0).val = 0 + (x 0).val; omega
    | ⟨1, _⟩ => show 0 + 1 * (x 2).val = 0 + (x 2).val; omega
    | ⟨2, _⟩ => show (r + 1 * (x 1).val) + (0 + 1 * (x 3).val) = r + (x 3).val; omega

end Rows

variable (V : (c : Dev nD) → (b : Ref sig .tc) → Buf (Elt F) ((c : Thread nD τ).loc b))

/-! ## Region 0 -/

/-- Region 0's kernel on any staging memrefs, at any point `i` and any input block `x0`: entry `y = (b, r, ch, q)`
    of what it leaves in the output's staging buffer is the loaded window at (b, ch, r + q), and the window is `x0`
    through the load's rectangle (255 positions from the point's offset). Every one of the 128 stored rows is the
    closed form `v ∘ winIdx` on its rectangle (`row_apply`), and the rows cover the block. -/
theorem out0_apply (c : Dev nD) (i : grid0.Coords) (arg2 : Memref sig .tc .vmem S2x64x767 .f32) (harg2 : arg2.IsWhole)
    (arg3 : Memref sig .tc .vmem S2x128x64x128 .f32) (harg3 : arg3.IsWhole) (x0 : Vec F S2x64x767 .f32)
    (y : S2x128x64x128.Idx) :
    out0_A_1 c i arg2 harg2 arg3 harg3 x0 y
      = x0 ((Rect.unit (s := S2x64x767) (k0_off1 i) S2x64x255.size (k0_off1_inb i)).toLoadRect.idx (winIdx y)) := by
  unfold out0_A_1
  rw [View.read_writes_eq_canon _ _ _ (cover0_A_1 c i arg2 harg2 arg3 harg3 x0)]
  refine (View.canon_apply_of_pieces
    (fun y => View.readAt (Elt F) arg2.view
      (Rect.unit (s := S2x64x767) (k0_off1 i) S2x64x255.size (k0_off1_inb i)).toLoadRect (harg2.unread x0) (winIdx y))
    _ ?_ y (cover0_A_1 c i arg2 harg2 arg3 harg3 x0 y)).trans ?_
  · unfold kernelRun0_A; dsimp only; sl_unfold_words
    repeat
      refine List.forall_mem_cons.2 ⟨?_, ?_⟩
      · intro x; dsimp only; exact row_apply _ _ _ _ _ _ x
    exact fun _ h => absurd h List.not_mem_nil
  · rw [View.readAt_eq_ld, harg2.read_unread]

/-- Region 0's input window is the whole padded sequence at every point: its block is the array and its block index
    is (0, 0, 0) everywhere, so the block read at an index is the array at the same coordinates. -/
theorem iblk0_apply (c : Dev nD) (t : Fin cfg0.N) (x k : S2x64x767.Idx) (h : ∀ a, (k a).val = (x a).val) :
    (iblk0 V c 0 t : Vec F S2x64x767 .f32) x = (V c main_v0 : S2x64x767.Idx → Elt F .f32) k := by
  have hi : ∀ a, win0_0.index t a = 0 := fun a => by
    show cc0_transform_0 (grid0.coords t) a = 0
    unfold cc0_transform_0
    match a with
    | ⟨0, _⟩ => rfl
    | ⟨1, _⟩ => rfl
    | ⟨2, _⟩ => rfl
  unfold iblk0
  rw [View.read_apply]
  show V c main_v0 _ = V c main_v0 _
  congr 1
  funext a
  apply Fin.ext
  match a with
  | ⟨0, _⟩ => show win0_0.index t 0 * 2 + 1 * (x 0).val = (k 0).val; rw [hi, h]; omega
  | ⟨1, _⟩ => show win0_0.index t 1 * 64 + 1 * (x 1).val = (k 1).val; rw [hi, h]; omega
  | ⟨2, _⟩ => show win0_0.index t 2 * 767 + 1 * (x 2).val = (k 2).val; rw [hi, h]; omega

/-- Region 0: entry (b, r, ch, q) of the block point `t` leaves is the padded sequence at (b, ch, 128·i + 128·j + r + q). -/
theorem outsAt0_apply (c : Dev nD) (t : Fin cfg0.N) (y : S2x128x64x128.Idx) (k : S2x64x767.Idx)
    (h0 : (k 0).val = (y 0).val) (h1 : (k 1).val = (y 2).val)
    (h2 : (k 2).val = 128 * (grid0.coords t 0).val + 128 * (grid0.coords t 1).val + (y 1).val + (y 3).val) :
    outsAt0 V c t y = (V c main_v0 : S2x64x767.Idx → Elt F .f32) k := by
  unfold outsAt0
  refine (out0_apply c (grid0.coords t) (ms0_0 t) (hs0_0 t) (ms0_1 t) (hs0_1 t) (iblk0 V c 0 t) y).trans ?_
  refine iblk0_apply V c t _ k fun a => ?_
  have e := k0_off1_eq (grid0.coords t)
  match a with
  | ⟨0, _⟩ =>
    show (k 0).val = k0_off1 (grid0.coords t) 0 + 1 * (y 0).val
    rw [e, h0]; show _ = 0 + 1 * (y 0).val; omega
  | ⟨1, _⟩ =>
    show (k 1).val = k0_off1 (grid0.coords t) 1 + 1 * (y 2).val
    rw [e, h1]; show _ = 0 + 1 * (y 2).val; omega
  | ⟨2, _⟩ =>
    show (k 2).val = k0_off1 (grid0.coords t) 2 + 1 * ((y 1).val + (y 3).val)
    rw [e, h2]
    show _ = (128 * (grid0.coords t 0).val + 128 * (grid0.coords t 1).val) + 1 * ((y 1).val + (y 3).val)
    omega

/-! ## Region 1 -/

/-- Region 1's kernel on any staging memrefs, at any point `i` and any input block `x0`: entry `y = (b, r, ch, q)`
    of what it leaves in the output's staging buffer is the loaded window at (b, ch, r + q), and the window is `x0`
    through the load's rectangle (255 positions from the point's offset). Every one of the 128 stored rows is the
    closed form `v ∘ winIdx` on its rectangle (`row_apply`), and the rows cover the block. -/
theorem out1_apply (c : Dev nD) (i : grid1.Coords) (arg2 : Memref sig .tc .vmem S2x64x1535 .f32) (harg2 : arg2.IsWhole)
    (arg3 : Memref sig .tc .vmem S2x128x64x128 .f32) (harg3 : arg3.IsWhole) (x0 : Vec F S2x64x1535 .f32)
    (y : S2x128x64x128.Idx) :
    out1_A_1 c i arg2 harg2 arg3 harg3 x0 y
      = x0 ((Rect.unit (s := S2x64x1535) (k1_off1 i) S2x64x255.size (k1_off1_inb i)).toLoadRect.idx (winIdx y)) := by
  unfold out1_A_1
  rw [View.read_writes_eq_canon _ _ _ (cover1_A_1 c i arg2 harg2 arg3 harg3 x0)]
  refine (View.canon_apply_of_pieces
    (fun y => View.readAt (Elt F) arg2.view
      (Rect.unit (s := S2x64x1535) (k1_off1 i) S2x64x255.size (k1_off1_inb i)).toLoadRect (harg2.unread x0) (winIdx y))
    _ ?_ y (cover1_A_1 c i arg2 harg2 arg3 harg3 x0 y)).trans ?_
  · unfold kernelRun1_A; dsimp only; sl_unfold_words
    repeat
      refine List.forall_mem_cons.2 ⟨?_, ?_⟩
      · intro x; dsimp only; exact row_apply _ _ _ _ _ _ x
    exact fun _ h => absurd h List.not_mem_nil
  · rw [View.readAt_eq_ld, harg2.read_unread]

/-- Region 1's input window is the whole padded sequence at every point: its block is the array and its block index
    is (0, 0, 0) everywhere, so the block read at an index is the array at the same coordinates. -/
theorem iblk1_apply (c : Dev nD) (t : Fin cfg1.N) (x k : S2x64x1535.Idx) (h : ∀ a, (k a).val = (x a).val) :
    (iblk1 V c 0 t : Vec F S2x64x1535 .f32) x = (V c main_v2 : S2x64x1535.Idx → Elt F .f32) k := by
  have hi : ∀ a, win1_0.index t a = 0 := fun a => by
    show cc1_transform_0 (grid1.coords t) a = 0
    unfold cc1_transform_0
    match a with
    | ⟨0, _⟩ => rfl
    | ⟨1, _⟩ => rfl
    | ⟨2, _⟩ => rfl
  unfold iblk1
  rw [View.read_apply]
  show V c main_v2 _ = V c main_v2 _
  congr 1
  funext a
  apply Fin.ext
  match a with
  | ⟨0, _⟩ => show win1_0.index t 0 * 2 + 1 * (x 0).val = (k 0).val; rw [hi, h]; omega
  | ⟨1, _⟩ => show win1_0.index t 1 * 64 + 1 * (x 1).val = (k 1).val; rw [hi, h]; omega
  | ⟨2, _⟩ => show win1_0.index t 2 * 1535 + 1 * (x 2).val = (k 2).val; rw [hi, h]; omega

/-- Region 1: entry (b, r, ch, q) of the block point `t` leaves is the padded sequence at (b, ch, 128·i + 128·j + r + q). -/
theorem outsAt1_apply (c : Dev nD) (t : Fin cfg1.N) (y : S2x128x64x128.Idx) (k : S2x64x1535.Idx)
    (h0 : (k 0).val = (y 0).val) (h1 : (k 1).val = (y 2).val)
    (h2 : (k 2).val = 128 * (grid1.coords t 0).val + 128 * (grid1.coords t 1).val + (y 1).val + (y 3).val) :
    outsAt1 V c t y = (V c main_v2 : S2x64x1535.Idx → Elt F .f32) k := by
  unfold outsAt1
  refine (out1_apply c (grid1.coords t) (ms1_0 t) (hs1_0 t) (ms1_1 t) (hs1_1 t) (iblk1 V c 0 t) y).trans ?_
  refine iblk1_apply V c t _ k fun a => ?_
  have e := k1_off1_eq (grid1.coords t)
  match a with
  | ⟨0, _⟩ =>
    show (k 0).val = k1_off1 (grid1.coords t) 0 + 1 * (y 0).val
    rw [e, h0]; show _ = 0 + 1 * (y 0).val; omega
  | ⟨1, _⟩ =>
    show (k 1).val = k1_off1 (grid1.coords t) 1 + 1 * (y 2).val
    rw [e, h1]; show _ = 0 + 1 * (y 2).val; omega
  | ⟨2, _⟩ =>
    show (k 2).val = k1_off1 (grid1.coords t) 2 + 1 * ((y 1).val + (y 3).val)
    rw [e, h2]
    show _ = (128 * (grid1.coords t 0).val + 128 * (grid1.coords t 1).val) + 1 * ((y 1).val + (y 3).val)
    omega

/-! ## Region 2 -/

/-- Region 2's kernel on any staging memrefs, at any point `i` and any input block `x0`: entry `y = (b, r, ch, q)`
    of what it leaves in the output's staging buffer is the loaded window at (b, ch, r + q), and the window is `x0`
    through the load's rectangle (255 positions from the point's offset). Every one of the 128 stored rows is the
    closed form `v ∘ winIdx` on its rectangle (`row_apply`), and the rows cover the block. -/
theorem out2_apply (c : Dev nD) (i : grid2.Coords) (arg2 : Memref sig .tc .vmem S2x64x1023 .f32) (harg2 : arg2.IsWhole)
    (arg3 : Memref sig .tc .vmem S2x128x64x128 .f32) (harg3 : arg3.IsWhole) (x0 : Vec F S2x64x1023 .f32)
    (y : S2x128x64x128.Idx) :
    out2_A_1 c i arg2 harg2 arg3 harg3 x0 y
      = x0 ((Rect.unit (s := S2x64x1023) (k2_off1 i) S2x64x255.size (k2_off1_inb i)).toLoadRect.idx (winIdx y)) := by
  unfold out2_A_1
  rw [View.read_writes_eq_canon _ _ _ (cover2_A_1 c i arg2 harg2 arg3 harg3 x0)]
  refine (View.canon_apply_of_pieces
    (fun y => View.readAt (Elt F) arg2.view
      (Rect.unit (s := S2x64x1023) (k2_off1 i) S2x64x255.size (k2_off1_inb i)).toLoadRect (harg2.unread x0) (winIdx y))
    _ ?_ y (cover2_A_1 c i arg2 harg2 arg3 harg3 x0 y)).trans ?_
  · unfold kernelRun2_A; dsimp only; sl_unfold_words
    repeat
      refine List.forall_mem_cons.2 ⟨?_, ?_⟩
      · intro x; dsimp only; exact row_apply _ _ _ _ _ _ x
    exact fun _ h => absurd h List.not_mem_nil
  · rw [View.readAt_eq_ld, harg2.read_unread]

/-- Region 2's input window is the whole padded sequence at every point: its block is the array and its block index
    is (0, 0, 0) everywhere, so the block read at an index is the array at the same coordinates. -/
theorem iblk2_apply (c : Dev nD) (t : Fin cfg2.N) (x k : S2x64x1023.Idx) (h : ∀ a, (k a).val = (x a).val) :
    (iblk2 V c 0 t : Vec F S2x64x1023 .f32) x = (V c main_v4 : S2x64x1023.Idx → Elt F .f32) k := by
  have hi : ∀ a, win2_0.index t a = 0 := fun a => by
    show cc2_transform_0 (grid2.coords t) a = 0
    unfold cc2_transform_0
    match a with
    | ⟨0, _⟩ => rfl
    | ⟨1, _⟩ => rfl
    | ⟨2, _⟩ => rfl
  unfold iblk2
  rw [View.read_apply]
  show V c main_v4 _ = V c main_v4 _
  congr 1
  funext a
  apply Fin.ext
  match a with
  | ⟨0, _⟩ => show win2_0.index t 0 * 2 + 1 * (x 0).val = (k 0).val; rw [hi, h]; omega
  | ⟨1, _⟩ => show win2_0.index t 1 * 64 + 1 * (x 1).val = (k 1).val; rw [hi, h]; omega
  | ⟨2, _⟩ => show win2_0.index t 2 * 1023 + 1 * (x 2).val = (k 2).val; rw [hi, h]; omega

/-- Region 2: entry (b, r, ch, q) of the block point `t` leaves is the padded sequence at (b, ch, 128·i + 128·j + r + q). -/
theorem outsAt2_apply (c : Dev nD) (t : Fin cfg2.N) (y : S2x128x64x128.Idx) (k : S2x64x1023.Idx)
    (h0 : (k 0).val = (y 0).val) (h1 : (k 1).val = (y 2).val)
    (h2 : (k 2).val = 128 * (grid2.coords t 0).val + 128 * (grid2.coords t 1).val + (y 1).val + (y 3).val) :
    outsAt2 V c t y = (V c main_v4 : S2x64x1023.Idx → Elt F .f32) k := by
  unfold outsAt2
  refine (out2_apply c (grid2.coords t) (ms2_0 t) (hs2_0 t) (ms2_1 t) (hs2_1 t) (iblk2 V c 0 t) y).trans ?_
  refine iblk2_apply V c t _ k fun a => ?_
  have e := k2_off1_eq (grid2.coords t)
  match a with
  | ⟨0, _⟩ =>
    show (k 0).val = k2_off1 (grid2.coords t) 0 + 1 * (y 0).val
    rw [e, h0]; show _ = 0 + 1 * (y 0).val; omega
  | ⟨1, _⟩ =>
    show (k 1).val = k2_off1 (grid2.coords t) 1 + 1 * (y 2).val
    rw [e, h1]; show _ = 0 + 1 * (y 2).val; omega
  | ⟨2, _⟩ =>
    show (k 2).val = k2_off1 (grid2.coords t) 2 + 1 * ((y 1).val + (y 3).val)
    rw [e, h2]
    show _ = (128 * (grid2.coords t 0).val + 128 * (grid2.coords t 1).val) + 1 * ((y 1).val + (y 3).val)
    omega

/-! ## Region 3 -/

/-- Region 3's kernel on any staging memrefs, at any point `i` and any input block `x0`: entry `y = (b, r, ch, q)`
    of what it leaves in the output's staging buffer is the loaded window at (b, ch, r + q), and the window is `x0`
    through the load's rectangle (255 positions from the point's offset). Every one of the 128 stored rows is the
    closed form `v ∘ winIdx` on its rectangle (`row_apply`), and the rows cover the block. -/
theorem out3_apply (c : Dev nD) (i : grid3.Coords) (arg2 : Memref sig .tc .vmem S2x64x1023 .f32) (harg2 : arg2.IsWhole)
    (arg3 : Memref sig .tc .vmem S2x128x64x128 .f32) (harg3 : arg3.IsWhole) (x0 : Vec F S2x64x1023 .f32)
    (y : S2x128x64x128.Idx) :
    out3_A_1 c i arg2 harg2 arg3 harg3 x0 y
      = x0 ((Rect.unit (s := S2x64x1023) (k3_off1 i) S2x64x255.size (k3_off1_inb i)).toLoadRect.idx (winIdx y)) := by
  unfold out3_A_1
  rw [View.read_writes_eq_canon _ _ _ (cover3_A_1 c i arg2 harg2 arg3 harg3 x0)]
  refine (View.canon_apply_of_pieces
    (fun y => View.readAt (Elt F) arg2.view
      (Rect.unit (s := S2x64x1023) (k3_off1 i) S2x64x255.size (k3_off1_inb i)).toLoadRect (harg2.unread x0) (winIdx y))
    _ ?_ y (cover3_A_1 c i arg2 harg2 arg3 harg3 x0 y)).trans ?_
  · unfold kernelRun3_A; dsimp only; sl_unfold_words
    repeat
      refine List.forall_mem_cons.2 ⟨?_, ?_⟩
      · intro x; dsimp only; exact row_apply _ _ _ _ _ _ x
    exact fun _ h => absurd h List.not_mem_nil
  · rw [View.readAt_eq_ld, harg2.read_unread]

/-- Region 3's input window is the whole padded sequence at every point: its block is the array and its block index
    is (0, 0, 0) everywhere, so the block read at an index is the array at the same coordinates. -/
theorem iblk3_apply (c : Dev nD) (t : Fin cfg3.N) (x k : S2x64x1023.Idx) (h : ∀ a, (k a).val = (x a).val) :
    (iblk3 V c 0 t : Vec F S2x64x1023 .f32) x = (V c main_v6 : S2x64x1023.Idx → Elt F .f32) k := by
  have hi : ∀ a, win3_0.index t a = 0 := fun a => by
    show cc3_transform_0 (grid3.coords t) a = 0
    unfold cc3_transform_0
    match a with
    | ⟨0, _⟩ => rfl
    | ⟨1, _⟩ => rfl
    | ⟨2, _⟩ => rfl
  unfold iblk3
  rw [View.read_apply]
  show V c main_v6 _ = V c main_v6 _
  congr 1
  funext a
  apply Fin.ext
  match a with
  | ⟨0, _⟩ => show win3_0.index t 0 * 2 + 1 * (x 0).val = (k 0).val; rw [hi, h]; omega
  | ⟨1, _⟩ => show win3_0.index t 1 * 64 + 1 * (x 1).val = (k 1).val; rw [hi, h]; omega
  | ⟨2, _⟩ => show win3_0.index t 2 * 1023 + 1 * (x 2).val = (k 2).val; rw [hi, h]; omega

/-- Region 3: entry (b, r, ch, q) of the block point `t` leaves is the padded sequence at (b, ch, 128·i + 128·j + r + q). -/
theorem outsAt3_apply (c : Dev nD) (t : Fin cfg3.N) (y : S2x128x64x128.Idx) (k : S2x64x1023.Idx)
    (h0 : (k 0).val = (y 0).val) (h1 : (k 1).val = (y 2).val)
    (h2 : (k 2).val = 128 * (grid3.coords t 0).val + 128 * (grid3.coords t 1).val + (y 1).val + (y 3).val) :
    outsAt3 V c t y = (V c main_v6 : S2x64x1023.Idx → Elt F .f32) k := by
  unfold outsAt3
  refine (out3_apply c (grid3.coords t) (ms3_0 t) (hs3_0 t) (ms3_1 t) (hs3_1 t) (iblk3 V c 0 t) y).trans ?_
  refine iblk3_apply V c t _ k fun a => ?_
  have e := k3_off1_eq (grid3.coords t)
  match a with
  | ⟨0, _⟩ =>
    show (k 0).val = k3_off1 (grid3.coords t) 0 + 1 * (y 0).val
    rw [e, h0]; show _ = 0 + 1 * (y 0).val; omega
  | ⟨1, _⟩ =>
    show (k 1).val = k3_off1 (grid3.coords t) 1 + 1 * (y 2).val
    rw [e, h1]; show _ = 0 + 1 * (y 2).val; omega
  | ⟨2, _⟩ =>
    show (k 2).val = k3_off1 (grid3.coords t) 2 + 1 * ((y 1).val + (y 3).val)
    rw [e, h2]
    show _ = (128 * (grid3.coords t 0).val + 128 * (grid3.coords t 1).val) + 1 * ((y 1).val + (y 3).val)
    omega

end Cert.KernelIdeal.Win

end
-- ==== Proof.WindowSpec.lean ====
/-
  Sliding windows of a zero-padded sequence, as plain functions of indices.

  For a sequence `x` of 512 positions per (batch, channel) pair and a window length `L` with `half = L / 2`,
  window `n` holds at lane `l` the entry `x[n - half + l]` when that position lies inside `[0, 512)` and the
  filling value otherwise (`centered`).  Reading a padded copy `P` of the sequence, whose position `p` is
  `x[p - half]` inside and the filling value outside, at position `n + l` gives the same array (`slide`,
  `slide_pad`): the two descriptions are one function of (batch, n, channel, l).
-/
import Idealize.ShloMosaic.Lib.ValueIdx
import Idealize.ShloMosaic.Lib.KernelVsHost

noncomputable section

namespace Cert.Window

open Idealize.ShloMosaic Idealize.ShloMosaic.ValueIdx

variable {α : Type}

/-- Window `n`, lane `l` of the sequence centred at `n`: `x[b, ch, n + l - half]` where `half ≤ n + l < half + 512`,
    the filling value `z` elsewhere. -/
def centered (half L : Nat) (z : α) (x : (⟨3, ![2, 64, 512]⟩ : Shape).Idx → α) :
    (⟨4, ![2, 512, 64, L]⟩ : Shape).Idx → α := fun j =>
  if h : half ≤ (j 1).val + (j 3).val ∧ (j 1).val + (j 3).val < half + 512 then
    x (ix3 ⟨(j 0).val, (j 0).isLt⟩ ⟨(j 2).val, (j 2).isLt⟩ ⟨(j 1).val + (j 3).val - half, by omega⟩)
  else z

/-- Window `n`, lane `l` read off an already padded sequence `P` of `W ≥ 511 + L` positions: `P[b, ch, n + l]`. -/
def slide (L W : Nat) (hW : 511 + L ≤ W) (P : (⟨3, ![2, 64, W]⟩ : Shape).Idx → α) :
    (⟨4, ![2, 512, 64, L]⟩ : Shape).Idx → α := fun j =>
  P (ix3 ⟨(j 0).val, (j 0).isLt⟩ ⟨(j 2).val, (j 2).isLt⟩ ⟨(j 1).val + (j 3).val, by
    have h1 : (j 1).val < 512 := (j 1).isLt
    have h3 : (j 3).val < L := (j 3).isLt
    omega⟩)

/-- Sliding over the sequence padded by `half` filling values in front (and `hi` behind) is the centred window. -/
theorem slide_pad (half hi L W : Nat) (hW : 511 + L ≤ W) (x : (⟨3, ![2, 64, 512]⟩ : Shape).Idx → α)
    {u : Shape} (v : u.Idx → α)
    (hp : (⟨3, ![2, 64, 512]⟩ : Shape).Pads ![0, 0, half] ![0, 0, hi] ![0, 0, 0] ⟨3, ![2, 64, W]⟩) (hu : 0 < u.numel) :
    slide L W hW (pad ⟨3, ![2, 64, W]⟩ ![0, 0, half] ![0, 0, hi] ![0, 0, 0] x v hp hu)
      = centered half L (v (Shape.Idx.first hu)) x := by
  funext j
  have h1 : (j 1).val < 512 := (j 1).isLt
  have h3 : (j 3).val < L := (j 3).isLt
  unfold slide centered
  by_cases h : half ≤ (j 1).val + (j 3).val ∧ (j 1).val + (j 3).val < half + 512
  · rw [dif_pos h]
    refine pad_apply_of_inside _ _ _ x v hp hu _ _ (fun a => ?_)
    match a with
    | ⟨0, _⟩ => show (j 0).val = 0 + (j 0).val * (0 + 1); omega
    | ⟨1, _⟩ => show (j 2).val = 0 + (j 2).val * (0 + 1); omega
    | ⟨2, _⟩ => show (j 1).val + (j 3).val = half + ((j 1).val + (j 3).val - half) * (0 + 1); omega
  · rw [dif_neg h]
    refine pad_apply_of_not_inside _ _ _ x v hp hu _ ⟨2, by decide⟩ (fun hin => h ?_)
    obtain ⟨ha, -, hc⟩ := hin
    have ha' : half ≤ (j 1).val + (j 3).val := ha
    have hc' : ((j 1).val + (j 3).val - half) / (0 + 1) < 512 := hc
    rw [Nat.div_one] at hc'
    omega

end Cert.Window

end
-- ==== Proof.KernelArrays.lean ====
/-
  Each window kernel's result array after all grid points.

  The output blocks tile the result array: block (i, j) covers rows 128·i … 128·i + 127 and lanes 128·j … 128·j + 127.
  Entry (b, r, ch, q) of that block is the padded sequence at (b, ch, 128·i + 128·j + r + q), that is, array entry
  (b, n, ch, l) with n = 128·i + r and l = 128·j + q is the padded sequence at (b, ch, n + l): the sliding window.
-/
import proofs.«140231_j61091614819052_1_alg».proof.Proof.Gen.KernelIdeal.Frame
import proofs.«140231_j61091614819052_1_alg».proof.Proof.KernelBlocks
import proofs.«140231_j61091614819052_1_alg».proof.Proof.WindowSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Win

open Cert.KernelIdeal Cert.KernelIdeal.Gen

variable {F : FTy → Type} [FloatOps F]

variable (V : (c : Dev nD) → (b : Ref sig .tc) → Buf (Elt F) ((c : Thread nD τ).loc b))

/-! ## Region 0 -/

/-- The result window's block index at grid point (i, j) is (0, i, 0, j): decided once over the grid. -/
theorem arr0_index : ∀ t : Fin cfg0.N, win0_1.index t (0 : Fin 4) = 0
    ∧ win0_1.index t (1 : Fin 4) = (grid0.coords t 0).val
    ∧ win0_1.index t (2 : Fin 4) = 0
    ∧ win0_1.index t (3 : Fin 4) = (grid0.coords t 1).val :=
  (by decide +kernel : ∀ t : Fin grid0.N, _)

/-- Every block index (0, q0, 0, q1) of the 4 × 2 tiling is some grid point's. -/
theorem arr0_onto : ∀ (q0 : Fin 4) (q1 : Fin 2), ∃ t : Fin cfg0.N, win0_1.index t = ![0, q0.val, 0, q1.val] :=
  (by decide +kernel : ∀ (q0 : Fin 4) (q1 : Fin 2), ∃ t : Fin grid0.N, win0_1.index t = ![0, q0.val, 0, q1.val])

/-- What point `t` writes back is its block of the sliding windows of the padded sequence: block entry (b, r, ch, q)
    sits at array entry (b, 128·i + r, ch, 128·j + q), whose sliding-window value is the padded sequence at
    (b, ch, 128·i + r + 128·j + q). -/
theorem arr0_flushed (c : Dev nD) (t : Fin cfg0.N) :
    (dat0 V c).flushed 1 t = ((cfg0.win 1).blk t).view.read (Elt F)
      (Cert.Window.slide 256 767 (by decide) (V c main_v0 : S2x64x767.Idx → Elt F .f32)) := by
  show (cfg0.win 1).cut (grid0.coords t) ((dat0 V c).after 1 t) = _
  rw [after0_1]
  obtain ⟨e0, e1, e2, e3⟩ := arr0_index t
  funext y
  have hy0 : (y 0).val < 2 := (y 0).isLt
  have hy1 : (y 1).val < 128 := (y 1).isLt
  have hy2 : (y 2).val < 64 := (y 2).isLt
  have hy3 : (y 3).val < 128 := (y 3).isLt
  show outsAt0 V c t ((cfg0.win 1).xinj (grid0.coords t) y)
    = Cert.Window.slide 256 767 (by decide) (V c main_v0 : S2x64x767.Idx → Elt F .f32) (((cfg0.win 1).blk t).view.emb y)
  unfold Cert.Window.slide
  refine outsAt0_apply V c t _ _ ?_ ?_ ?_
  · show win0_1.index t (0 : Fin 4) * 2 + 1 * (y 0).val = (y 0).val
    omega
  · show win0_1.index t (2 : Fin 4) * 64 + 1 * (y 2).val = (y 2).val
    omega
  · show (win0_1.index t (1 : Fin 4) * 128 + 1 * (y 1).val) + (win0_1.index t (3 : Fin 4) * 128 + 1 * (y 3).val)
      = 128 * (grid0.coords t 0).val + 128 * (grid0.coords t 1).val + (y 1).val + (y 3).val
    omega

/-- An index of the result array is in point `t`'s block iff each coordinate is in the block's range on its axis. -/
theorem arr0_mem_blk (t : Fin cfg0.N) (i : S2x512x64x256.Idx) :
    i ∈ ((cfg0.win 1).blk t).view.set ↔ ∀ a : Fin 4, win0_1.index t a * S2x128x64x128.size a ≤ (i a).val
      ∧ (i a).val < win0_1.index t a * S2x128x64x128.size a + S2x128x64x128.size a := by
  show i ∈ ((View.whole main_v1).slice (win0_1.rect t)).set ↔ _
  rw [View.set_slice_whole, Rect.mem_set_unit]
  exact Iff.rfl

/-- The blocks tile the result array: entry (b, n, ch, l) is in the block of the point with block index
    (0, n / 128, 0, l / 128). -/
theorem arr0_cover (i : S2x512x64x256.Idx) :
    ∃ t : Fin cfg0.N, (cfg0.win 1).flush t = true ∧ i ∈ ((cfg0.win 1).blk t).view.set := by
  have hi0 : (i 0).val < 2 := (i 0).isLt
  have hi1 : (i 1).val < 512 := (i 1).isLt
  have hi2 : (i 2).val < 64 := (i 2).isLt
  have hi3 : (i 3).val < 256 := (i 3).isLt
  obtain ⟨t, ht⟩ := arr0_onto ⟨(i 1).val / 128, by omega⟩ ⟨(i 3).val / 128, by omega⟩
  have q0 : win0_1.index t (0 : Fin 4) = 0 := congrFun ht 0
  have q1 : win0_1.index t (1 : Fin 4) = (i 1).val / 128 := congrFun ht 1
  have q2 : win0_1.index t (2 : Fin 4) = 0 := congrFun ht 2
  have q3 : win0_1.index t (3 : Fin 4) = (i 3).val / 128 := congrFun ht 3
  refine ⟨t, flush0_1 t, ?_⟩
  rw [arr0_mem_blk]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 128 ≤ (i 1).val ∧ (i 1).val < win0_1.index t (1 : Fin 4) * 128 + 128; omega
  | ⟨2, _⟩ => show win0_1.index t (2 : Fin 4) * 64 ≤ (i 2).val ∧ (i 2).val < win0_1.index t (2 : Fin 4) * 64 + 64; omega
  | ⟨3, _⟩ => show win0_1.index t (3 : Fin 4) * 128 ≤ (i 3).val ∧ (i 3).val < win0_1.index t (3 : Fin 4) * 128 + 128; omega

/-- Region 0: the result array ends holding the sliding windows of the padded sequence the region was given. -/
theorem arr0_final (c : Dev nD) :
    (dat0 V c).arrAt 1 cfg0.N = Cert.Window.slide 256 767 (by decide) (V c main_v0 : S2x64x767.Idx → Elt F .f32) :=
  (dat0 V c).arrAt_eq_of_cover 1 _ (fun t _ => arr0_flushed V c t) (arr0_cover)

/-! ## Region 1 -/

/-- The result window's block index at grid point (i, j) is (0, i, 0, j): decided once over the grid. -/
theorem arr1_index : ∀ t : Fin cfg1.N, win1_1.index t (0 : Fin 4) = 0
    ∧ win1_1.index t (1 : Fin 4) = (grid1.coords t 0).val
    ∧ win1_1.index t (2 : Fin 4) = 0
    ∧ win1_1.index t (3 : Fin 4) = (grid1.coords t 1).val :=
  (by decide +kernel : ∀ t : Fin grid1.N, _)

/-- Every block index (0, q0, 0, q1) of the 4 × 8 tiling is some grid point's. -/
theorem arr1_onto : ∀ (q0 : Fin 4) (q1 : Fin 8), ∃ t : Fin cfg1.N, win1_1.index t = ![0, q0.val, 0, q1.val] :=
  (by decide +kernel : ∀ (q0 : Fin 4) (q1 : Fin 8), ∃ t : Fin grid1.N, win1_1.index t = ![0, q0.val, 0, q1.val])

/-- What point `t` writes back is its block of the sliding windows of the padded sequence: block entry (b, r, ch, q)
    sits at array entry (b, 128·i + r, ch, 128·j + q), whose sliding-window value is the padded sequence at
    (b, ch, 128·i + r + 128·j + q). -/
theorem arr1_flushed (c : Dev nD) (t : Fin cfg1.N) :
    (dat1 V c).flushed 1 t = ((cfg1.win 1).blk t).view.read (Elt F)
      (Cert.Window.slide 1024 1535 (by decide) (V c main_v2 : S2x64x1535.Idx → Elt F .f32)) := by
  show (cfg1.win 1).cut (grid1.coords t) ((dat1 V c).after 1 t) = _
  rw [after1_1]
  obtain ⟨e0, e1, e2, e3⟩ := arr1_index t
  funext y
  have hy0 : (y 0).val < 2 := (y 0).isLt
  have hy1 : (y 1).val < 128 := (y 1).isLt
  have hy2 : (y 2).val < 64 := (y 2).isLt
  have hy3 : (y 3).val < 128 := (y 3).isLt
  show outsAt1 V c t ((cfg1.win 1).xinj (grid1.coords t) y)
    = Cert.Window.slide 1024 1535 (by decide) (V c main_v2 : S2x64x1535.Idx → Elt F .f32) (((cfg1.win 1).blk t).view.emb y)
  unfold Cert.Window.slide
  refine outsAt1_apply V c t _ _ ?_ ?_ ?_
  · show win1_1.index t (0 : Fin 4) * 2 + 1 * (y 0).val = (y 0).val
    omega
  · show win1_1.index t (2 : Fin 4) * 64 + 1 * (y 2).val = (y 2).val
    omega
  · show (win1_1.index t (1 : Fin 4) * 128 + 1 * (y 1).val) + (win1_1.index t (3 : Fin 4) * 128 + 1 * (y 3).val)
      = 128 * (grid1.coords t 0).val + 128 * (grid1.coords t 1).val + (y 1).val + (y 3).val
    omega

/-- An index of the result array is in point `t`'s block iff each coordinate is in the block's range on its axis. -/
theorem arr1_mem_blk (t : Fin cfg1.N) (i : S2x512x64x1024.Idx) :
    i ∈ ((cfg1.win 1).blk t).view.set ↔ ∀ a : Fin 4, win1_1.index t a * S2x128x64x128.size a ≤ (i a).val
      ∧ (i a).val < win1_1.index t a * S2x128x64x128.size a + S2x128x64x128.size a := by
  show i ∈ ((View.whole main_v3).slice (win1_1.rect t)).set ↔ _
  rw [View.set_slice_whole, Rect.mem_set_unit]
  exact Iff.rfl

/-- The blocks tile the result array: entry (b, n, ch, l) is in the block of the point with block index
    (0, n / 128, 0, l / 128). -/
theorem arr1_cover (i : S2x512x64x1024.Idx) :
    ∃ t : Fin cfg1.N, (cfg1.win 1).flush t = true ∧ i ∈ ((cfg1.win 1).blk t).view.set := by
  have hi0 : (i 0).val < 2 := (i 0).isLt
  have hi1 : (i 1).val < 512 := (i 1).isLt
  have hi2 : (i 2).val < 64 := (i 2).isLt
  have hi3 : (i 3).val < 1024 := (i 3).isLt
  obtain ⟨t, ht⟩ := arr1_onto ⟨(i 1).val / 128, by omega⟩ ⟨(i 3).val / 128, by omega⟩
  have q0 : win1_1.index t (0 : Fin 4) = 0 := congrFun ht 0
  have q1 : win1_1.index t (1 : Fin 4) = (i 1).val / 128 := congrFun ht 1
  have q2 : win1_1.index t (2 : Fin 4) = 0 := congrFun ht 2
  have q3 : win1_1.index t (3 : Fin 4) = (i 3).val / 128 := congrFun ht 3
  refine ⟨t, flush1_1 t, ?_⟩
  rw [arr1_mem_blk]
  intro a
  match a with
  | ⟨0, _⟩ => show win1_1.index t (0 : Fin 4) * 2 ≤ (i 0).val ∧ (i 0).val < win1_1.index t (0 : Fin 4) * 2 + 2; omega
  | ⟨1, _⟩ => show win1_1.index t (1 : Fin 4) * 128 ≤ (i 1).val ∧ (i 1).val < win1_1.index t (1 : Fin 4) * 128 + 128; omega
  | ⟨2, _⟩ => show win1_1.index t (2 : Fin 4) * 64 ≤ (i 2).val ∧ (i 2).val < win1_1.index t (2 : Fin 4) * 64 + 64; omega
  | ⟨3, _⟩ => show win1_1.index t (3 : Fin 4) * 128 ≤ (i 3).val ∧ (i 3).val < win1_1.index t (3 : Fin 4) * 128 + 128; omega

/-- Region 1: the result array ends holding the sliding windows of the padded sequence the region was given. -/
theorem arr1_final (c : Dev nD) :
    (dat1 V c).arrAt 1 cfg1.N = Cert.Window.slide 1024 1535 (by decide) (V c main_v2 : S2x64x1535.Idx → Elt F .f32) :=
  (dat1 V c).arrAt_eq_of_cover 1 _ (fun t _ => arr1_flushed V c t) (arr1_cover)

/-! ## Region 2 -/

/-- The result window's block index at grid point (i, j) is (0, i, 0, j): decided once over the grid. -/
theorem arr2_index : ∀ t : Fin cfg2.N, win2_1.index t (0 : Fin 4) = 0
    ∧ win2_1.index t (1 : Fin 4) = (grid2.coords t 0).val
    ∧ win2_1.index t (2 : Fin 4) = 0
    ∧ win2_1.index t (3 : Fin 4) = (grid2.coords t 1).val :=
  (by decide +kernel : ∀ t : Fin grid2.N, _)

/-- Every block index (0, q0, 0, q1) of the 4 × 4 tiling is some grid point's. -/
theorem arr2_onto : ∀ (q0 : Fin 4) (q1 : Fin 4), ∃ t : Fin cfg2.N, win2_1.index t = ![0, q0.val, 0, q1.val] :=
  (by decide +kernel : ∀ (q0 : Fin 4) (q1 : Fin 4), ∃ t : Fin grid2.N, win2_1.index t = ![0, q0.val, 0, q1.val])

/-- What point `t` writes back is its block of the sliding windows of the padded sequence: block entry (b, r, ch, q)
    sits at array entry (b, 128·i + r, ch, 128·j + q), whose sliding-window value is the padded sequence at
    (b, ch, 128·i + r + 128·j + q). -/
theorem arr2_flushed (c : Dev nD) (t : Fin cfg2.N) :
    (dat2 V c).flushed 1 t = ((cfg2.win 1).blk t).view.read (Elt F)
      (Cert.Window.slide 512 1023 (by decide) (V c main_v4 : S2x64x1023.Idx → Elt F .f32)) := by
  show (cfg2.win 1).cut (grid2.coords t) ((dat2 V c).after 1 t) = _
  rw [after2_1]
  obtain ⟨e0, e1, e2, e3⟩ := arr2_index t
  funext y
  have hy0 : (y 0).val < 2 := (y 0).isLt
  have hy1 : (y 1).val < 128 := (y 1).isLt
  have hy2 : (y 2).val < 64 := (y 2).isLt
  have hy3 : (y 3).val < 128 := (y 3).isLt
  show outsAt2 V c t ((cfg2.win 1).xinj (grid2.coords t) y)
    = Cert.Window.slide 512 1023 (by decide) (V c main_v4 : S2x64x1023.Idx → Elt F .f32) (((cfg2.win 1).blk t).view.emb y)
  unfold Cert.Window.slide
  refine outsAt2_apply V c t _ _ ?_ ?_ ?_
  · show win2_1.index t (0 : Fin 4) * 2 + 1 * (y 0).val = (y 0).val
    omega
  · show win2_1.index t (2 : Fin 4) * 64 + 1 * (y 2).val = (y 2).val
    omega
  · show (win2_1.index t (1 : Fin 4) * 128 + 1 * (y 1).val) + (win2_1.index t (3 : Fin 4) * 128 + 1 * (y 3).val)
      = 128 * (grid2.coords t 0).val + 128 * (grid2.coords t 1).val + (y 1).val + (y 3).val
    omega

/-- An index of the result array is in point `t`'s block iff each coordinate is in the block's range on its axis. -/
theorem arr2_mem_blk (t : Fin cfg2.N) (i : S2x512x64x512.Idx) :
    i ∈ ((cfg2.win 1).blk t).view.set ↔ ∀ a : Fin 4, win2_1.index t a * S2x128x64x128.size a ≤ (i a).val
      ∧ (i a).val < win2_1.index t a * S2x128x64x128.size a + S2x128x64x128.size a := by
  show i ∈ ((View.whole main_v5).slice (win2_1.rect t)).set ↔ _
  rw [View.set_slice_whole, Rect.mem_set_unit]
  exact Iff.rfl

/-- The blocks tile the result array: entry (b, n, ch, l) is in the block of the point with block index
    (0, n / 128, 0, l / 128). -/
theorem arr2_cover (i : S2x512x64x512.Idx) :
    ∃ t : Fin cfg2.N, (cfg2.win 1).flush t = true ∧ i ∈ ((cfg2.win 1).blk t).view.set := by
  have hi0 : (i 0).val < 2 := (i 0).isLt
  have hi1 : (i 1).val < 512 := (i 1).isLt
  have hi2 : (i 2).val < 64 := (i 2).isLt
  have hi3 : (i 3).val < 512 := (i 3).isLt
  obtain ⟨t, ht⟩ := arr2_onto ⟨(i 1).val / 128, by omega⟩ ⟨(i 3).val / 128, by omega⟩
  have q0 : win2_1.index t (0 : Fin 4) = 0 := congrFun ht 0
  have q1 : win2_1.index t (1 : Fin 4) = (i 1).val / 128 := congrFun ht 1
  have q2 : win2_1.index t (2 : Fin 4) = 0 := congrFun ht 2
  have q3 : win2_1.index t (3 : Fin 4) = (i 3).val / 128 := congrFun ht 3
  refine ⟨t, flush2_1 t, ?_⟩
  rw [arr2_mem_blk]
  intro a
  match a with
  | ⟨0, _⟩ => show win2_1.index t (0 : Fin 4) * 2 ≤ (i 0).val ∧ (i 0).val < win2_1.index t (0 : Fin 4) * 2 + 2; omega
  | ⟨1, _⟩ => show win2_1.index t (1 : Fin 4) * 128 ≤ (i 1).val ∧ (i 1).val < win2_1.index t (1 : Fin 4) * 128 + 128; omega
  | ⟨2, _⟩ => show win2_1.index t (2 : Fin 4) * 64 ≤ (i 2).val ∧ (i 2).val < win2_1.index t (2 : Fin 4) * 64 + 64; omega
  | ⟨3, _⟩ => show win2_1.index t (3 : Fin 4) * 128 ≤ (i 3).val ∧ (i 3).val < win2_1.index t (3 : Fin 4) * 128 + 128; omega

/-- Region 2: the result array ends holding the sliding windows of the padded sequence the region was given. -/
theorem arr2_final (c : Dev nD) :
    (dat2 V c).arrAt 1 cfg2.N = Cert.Window.slide 512 1023 (by decide) (V c main_v4 : S2x64x1023.Idx → Elt F .f32) :=
  (dat2 V c).arrAt_eq_of_cover 1 _ (fun t _ => arr2_flushed V c t) (arr2_cover)

/-! ## Region 3 -/

/-- The result window's block index at grid point (i, j) is (0, i, 0, j): decided once over the grid. -/
theorem arr3_index : ∀ t : Fin cfg3.N, win3_1.index t (0 : Fin 4) = 0
    ∧ win3_1.index t (1 : Fin 4) = (grid3.coords t 0).val
    ∧ win3_1.index t (2 : Fin 4) = 0
    ∧ win3_1.index t (3 : Fin 4) = (grid3.coords t 1).val :=
  (by decide +kernel : ∀ t : Fin grid3.N, _)

/-- Every block index (0, q0, 0, q1) of the 4 × 4 tiling is some grid point's. -/
theorem arr3_onto : ∀ (q0 : Fin 4) (q1 : Fin 4), ∃ t : Fin cfg3.N, win3_1.index t = ![0, q0.val, 0, q1.val] :=
  (by decide +kernel : ∀ (q0 : Fin 4) (q1 : Fin 4), ∃ t : Fin grid3.N, win3_1.index t = ![0, q0.val, 0, q1.val])

/-- What point `t` writes back is its block of the sliding windows of the padded sequence: block entry (b, r, ch, q)
    sits at array entry (b, 128·i + r, ch, 128·j + q), whose sliding-window value is the padded sequence at
    (b, ch, 128·i + r + 128·j + q). -/
theorem arr3_flushed (c : Dev nD) (t : Fin cfg3.N) :
    (dat3 V c).flushed 1 t = ((cfg3.win 1).blk t).view.read (Elt F)
      (Cert.Window.slide 512 1023 (by decide) (V c main_v6 : S2x64x1023.Idx → Elt F .f32)) := by
  show (cfg3.win 1).cut (grid3.coords t) ((dat3 V c).after 1 t) = _
  rw [after3_1]
  obtain ⟨e0, e1, e2, e3⟩ := arr3_index t
  funext y
  have hy0 : (y 0).val < 2 := (y 0).isLt
  have hy1 : (y 1).val < 128 := (y 1).isLt
  have hy2 : (y 2).val < 64 := (y 2).isLt
  have hy3 : (y 3).val < 128 := (y 3).isLt
  show outsAt3 V c t ((cfg3.win 1).xinj (grid3.coords t) y)
    = Cert.Window.slide 512 1023 (by decide) (V c main_v6 : S2x64x1023.Idx → Elt F .f32) (((cfg3.win 1).blk t).view.emb y)
  unfold Cert.Window.slide
  refine outsAt3_apply V c t _ _ ?_ ?_ ?_
  · show win3_1.index t (0 : Fin 4) * 2 + 1 * (y 0).val = (y 0).val
    omega
  · show win3_1.index t (2 : Fin 4) * 64 + 1 * (y 2).val = (y 2).val
    omega
  · show (win3_1.index t (1 : Fin 4) * 128 + 1 * (y 1).val) + (win3_1.index t (3 : Fin 4) * 128 + 1 * (y 3).val)
      = 128 * (grid3.coords t 0).val + 128 * (grid3.coords t 1).val + (y 1).val + (y 3).val
    omega

/-- An index of the result array is in point `t`'s block iff each coordinate is in the block's range on its axis. -/
theorem arr3_mem_blk (t : Fin cfg3.N) (i : S2x512x64x512.Idx) :
    i ∈ ((cfg3.win 1).blk t).view.set ↔ ∀ a : Fin 4, win3_1.index t a * S2x128x64x128.size a ≤ (i a).val
      ∧ (i a).val < win3_1.index t a * S2x128x64x128.size a + S2x128x64x128.size a := by
  show i ∈ ((View.whole main_v7).slice (win3_1.rect t)).set ↔ _
  rw [View.set_slice_whole, Rect.mem_set_unit]
  exact Iff.rfl

/-- The blocks tile the result array: entry (b, n, ch, l) is in the block of the point with block index
    (0, n / 128, 0, l / 128). -/
theorem arr3_cover (i : S2x512x64x512.Idx) :
    ∃ t : Fin cfg3.N, (cfg3.win 1).flush t = true ∧ i ∈ ((cfg3.win 1).blk t).view.set := by
  have hi0 : (i 0).val < 2 := (i 0).isLt
  have hi1 : (i 1).val < 512 := (i 1).isLt
  have hi2 : (i 2).val < 64 := (i 2).isLt
  have hi3 : (i 3).val < 512 := (i 3).isLt
  obtain ⟨t, ht⟩ := arr3_onto ⟨(i 1).val / 128, by omega⟩ ⟨(i 3).val / 128, by omega⟩
  have q0 : win3_1.index t (0 : Fin 4) = 0 := congrFun ht 0
  have q1 : win3_1.index t (1 : Fin 4) = (i 1).val / 128 := congrFun ht 1
  have q2 : win3_1.index t (2 : Fin 4) = 0 := congrFun ht 2
  have q3 : win3_1.index t (3 : Fin 4) = (i 3).val / 128 := congrFun ht 3
  refine ⟨t, flush3_1 t, ?_⟩
  rw [arr3_mem_blk]
  intro a
  match a with
  | ⟨0, _⟩ => show win3_1.index t (0 : Fin 4) * 2 ≤ (i 0).val ∧ (i 0).val < win3_1.index t (0 : Fin 4) * 2 + 2; omega
  | ⟨1, _⟩ => show win3_1.index t (1 : Fin 4) * 128 ≤ (i 1).val ∧ (i 1).val < win3_1.index t (1 : Fin 4) * 128 + 128; omega
  | ⟨2, _⟩ => show win3_1.index t (2 : Fin 4) * 64 ≤ (i 2).val ∧ (i 2).val < win3_1.index t (2 : Fin 4) * 64 + 64; omega
  | ⟨3, _⟩ => show win3_1.index t (3 : Fin 4) * 128 ≤ (i 3).val ∧ (i 3).val < win3_1.index t (3 : Fin 4) * 128 + 128; omega

/-- Region 3: the result array ends holding the sliding windows of the padded sequence the region was given. -/
theorem arr3_final (c : Dev nD) :
    (dat3 V c).arrAt 1 cfg3.N = Cert.Window.slide 512 1023 (by decide) (V c main_v6 : S2x64x1023.Idx → Elt F .f32) :=
  (dat3 V c).arrAt_eq_of_cover 1 _ (fun t _ => arr3_flushed V c t) (arr3_cover)

end Cert.KernelIdeal.Win

end
-- ==== Proof.KernelValue.lean ====
/-
  The idealized kernel's run with every result named, and each result as a centred window of the argument.

  Result k is what region k's write-backs leave: the sliding windows of the padded copy of the argument the host made
  for that region.  Padding by zeros in front and behind and then sliding is the centred window of the argument with
  zero outside the sequence; the filling value is the integer 0 converted to a float, which at the exact instance is the
  real number 0.
-/
import proofs.«140231_j61091614819052_1_alg».proof.Proof.Gen.KernelIdeal.Frame
import proofs.«140231_j61091614819052_1_alg».proof.Proof.KernelLaunch
import proofs.«140231_j61091614819052_1_alg».proof.Proof.KernelFold
import proofs.«140231_j61091614819052_1_alg».proof.Proof.KernelArrays
import proofs.«140231_j61091614819052_1_alg».proof.Proof.WindowSpec
import Idealize.ShloMosaic.PureOps.Ideal.Laws
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Win

open Cert.KernelIdeal Cert.KernelIdeal.Gen

variable {F : FTy → Type} [FloatOps F]

variable (m : (ℓ : Loc nD τ sig) → Buf (Elt F) ℓ) (ρ : Dev nD → PrngReg)

/-- The run with the four result arrays at the sliding windows of the four padded copies of the argument. -/
theorem run_slides : θ_run defs (onTc (τ := τ) (main (F := F))) ⟨m, fun _ => 0, ρ⟩ (fun r => ∀ c : Dev nD,
      r.2.mem ((c.tc : Thread nD τ).loc main_v1) = Cert.Window.slide 256 767 (by decide) (padded0 m c)
      ∧ r.2.mem ((c.tc : Thread nD τ).loc main_v3) = Cert.Window.slide 1024 1535 (by decide) (padded1 m c)
      ∧ r.2.mem ((c.tc : Thread nD τ).loc main_v5) = Cert.Window.slide 512 1023 (by decide) (padded2 m c)
      ∧ r.2.mem ((c.tc : Thread nD τ).loc main_v7) = Cert.Window.slide 512 1023 (by decide) (padded3 m c)
      ∧ r.2.mem ((c.tc : Thread nD τ).loc main_arg0) = m ((c.tc : Thread nD τ).loc main_arg0)) :=
  (θ_run defs _ _).mono (fun r h c =>
      ⟨(h c).1.trans ((W12_main_v1 m ρ c).trans ((arr0_final (V2 m ρ) c).trans (congrArg _ (V2_main_v0 m ρ c)))),
       (h c).2.1.trans ((W12_main_v3 m ρ c).trans ((arr1_final (V5 m ρ) c).trans (congrArg _ (V5_main_v2 m ρ c)))),
       (h c).2.2.1.trans ((W12_main_v5 m ρ c).trans ((arr2_final (V8 m ρ) c).trans (congrArg _ (V8_main_v4 m ρ c)))),
       (h c).2.2.2.1.trans ((W12_main_v7 m ρ c).trans ((arr3_final (V11 m ρ) c).trans (congrArg _ (V11_main_v6 m ρ c)))),
       (h c).2.2.2.2⟩)
    (Gen.run_W12 m ρ)

/-- The filling value at the exact instance: the integer 0 converted is the real 0. -/
theorem fill_zero : (sitofp .f32 (constantI S_ 32 0#32) : FVec Ideal S_ .f32) (Shape.Idx.first h_S_) = (0 : EReal) := by
  show (((0#32 : BitVec 32).toInt : ℝ) : EReal) = (0 : EReal)
  rw [show (0#32 : BitVec 32).toInt = 0 from by decide]
  simp

end Cert.KernelIdeal.Win

namespace Cert.KernelIdeal.Win

open Cert.KernelIdeal Cert.KernelIdeal.Gen

variable (m : (ℓ : Loc nD τ sig) → Buf (Elt Ideal) ℓ) (ρ : Dev nD → PrngReg)

/-- At the exact instance each result is the centred window of the argument, zero outside the sequence. -/
theorem run_centered : θ_run defs (onTc (τ := τ) (main (F := Ideal))) ⟨m, fun _ => 0, ρ⟩ (fun r => ∀ c : Dev nD,
      r.2.mem ((c.tc : Thread nD τ).loc main_v1) = Cert.Window.centered 128 256 (0 : EReal) (m ((c.tc : Thread nD τ).loc main_arg0))
      ∧ r.2.mem ((c.tc : Thread nD τ).loc main_v3) = Cert.Window.centered 512 1024 (0 : EReal) (m ((c.tc : Thread nD τ).loc main_arg0))
      ∧ r.2.mem ((c.tc : Thread nD τ).loc main_v5) = Cert.Window.centered 256 512 (0 : EReal) (m ((c.tc : Thread nD τ).loc main_arg0))
      ∧ r.2.mem ((c.tc : Thread nD τ).loc main_v7) = Cert.Window.centered 256 512 (0 : EReal) (m ((c.tc : Thread nD τ).loc main_arg0))
      ∧ r.2.mem ((c.tc : Thread nD τ).loc main_arg0) = m ((c.tc : Thread nD τ).loc main_arg0)) :=
  (θ_run defs _ _).mono (fun r h c =>
      ⟨(h c).1.trans ((Cert.Window.slide_pad 128 127 256 767 (by decide) _ _ _ _).trans (by rw [fill_zero])),
       (h c).2.1.trans ((Cert.Window.slide_pad 512 511 1024 1535 (by decide) _ _ _ _).trans (by rw [fill_zero])),
       (h c).2.2.1.trans ((Cert.Window.slide_pad 256 255 512 1023 (by decide) _ _ _ _).trans (by rw [fill_zero])),
       (h c).2.2.2.1.trans ((Cert.Window.slide_pad 256 255 512 1023 (by decide) _ _ _ _).trans (by rw [fill_zero])),
       (h c).2.2.2.2⟩)
    (run_slides (F := Ideal) m ρ)

end Cert.KernelIdeal.Win

end
-- ==== Proof.RefGather.lean ====
/-
  The reference's gathers read at an index.

  Each gather takes x : [2, 64, 512] and start indices idx : [512, L, 1] (one index vector of length 1 per (n, l), naming
  a start on axis 2; slice sizes [2, 64, 1]; axes 0 and 1 of the result are the slice's, axes 2 and 3 the batch (n, l)).
  Result entry (b, ch, n, l) is x at (b, ch, s) where s is idx[n, l, 0] read as a signed integer and clamped into
  [0, 511].
-/
import proofs.«140231_j61091614819052_1_alg».proof.Proof.Gen.ReferenceIdeal
import Idealize.ShloMosaic.Lib.ValueIdx

set_option maxRecDepth 16384

noncomputable section

open Idealize.ShloMosaic Idealize.ShloMosaic.TcCoe Idealize.SL.Sem Idealize.ShloMosaic.ValueIdx

namespace Cert.ReferenceIdeal.Win

open Cert.ReferenceIdeal Cert.ReferenceIdeal.Gen

variable {α : Type}

/-- The dimension numbers the three gathers share, over the lane extent L: operand [2, 64, 512], start indices
    [512, L, 1], result [2, 64, 512, L]; offset axes 0 and 1, collapsed axis 2, start index map [2], index vector
    axis 2, slice sizes [2, 64, 1]. Each of the reference's three records is this one at its own L. -/
private abbrev gatherDimsL (L : Nat) (wf : GatherDims.WF ⟨3, ![2, 64, 512]⟩ ⟨3, ![512, L, 1]⟩ ⟨4, ![2, 64, 512, L]⟩ [0, 1] [2] [] [2] [] 2 ![2, 64, 1]) :
    GatherDims ⟨3, ![2, 64, 512]⟩ ⟨3, ![512, L, 1]⟩ ⟨4, ![2, 64, 512, L]⟩ where
  offsetDims := [0, 1]
  collapsedSliceDims := [2]
  operandBatchingDims := []
  startIndicesBatchingDims := []
  startIndexMap := [2]
  indexVectorDim := 2
  sliceSizes := ![2, 64, 1]
  wf := wf

/-- The gather read at (b, ch, n, l), for any lane extent L. The operand index is, axis by axis, start + batching
    coordinate + offset coordinate; there is no batching axis, so the middle term is 0 everywhere.
    Axes 0 and 1 are not in the start index map (start 0) and are the first and second kept axes of the operand, read
    by the result's offset axes 0 and 1: the coordinate is b, resp. ch.
    Axis 2 is collapsed (offset coordinate 0) and is the start index map's only entry: the coordinate is the start
    index's component 0, read signed at (n, l, 0) and clamped into [0, 512 − 1]. -/
private theorem gatherL_apply {L : Nat} (wf : GatherDims.WF ⟨3, ![2, 64, 512]⟩ ⟨3, ![512, L, 1]⟩ ⟨4, ![2, 64, 512, L]⟩ [0, 1] [2] [] [2] [] 2 ![2, 64, 1])
    (x : (⟨3, ![2, 64, 512]⟩ : Shape).Idx → α) (idx : IVec ⟨3, ![512, L, 1]⟩ 32) (i : (⟨4, ![2, 64, 512, L]⟩ : Shape).Idx) :
    Host.gather (gatherDimsL L wf) x idx i
      = x (ix3 ⟨(i 0).val, (i 0).isLt⟩ ⟨(i 1).val, (i 1).isLt⟩
          ⟨min (idx (ix3 ⟨(i 2).val, (i 2).isLt⟩ ⟨(i 3).val, (i 3).isLt⟩ ⟨0, Nat.one_pos⟩)).toInt.toNat 511, by omega⟩) := by
  unfold Host.gather
  congr 1
  funext a
  refine Fin.ext ?_
  show (gatherDimsL L wf).start i idx a + (gatherDimsL L wf).batchCoord i a + (gatherDimsL L wf).offCoord i a = _
  rw [GatherDims.batchCoord_eq_zero _ _ _ List.not_mem_nil, Nat.add_zero]
  match a with
  | ⟨0, _⟩ =>
    -- kept axes of the operand are [0, 1]; axis 0 is the first, read by offset axis 0
    have hk : (⟨0, by decide⟩ : Fin 3) ∈ (gatherDimsL L wf).sKept :=
      show (⟨0, by decide⟩ : Fin 3) ∈ (List.finRange 3).filter (· ∉ ([2] ++ [] : List (Fin 3))) from by decide
    have hn : (⟨0, by decide⟩ : Fin 3) ∉ (gatherDimsL L wf).startIndexMap :=
      show (⟨0, by decide⟩ : Fin 3) ∉ ([2] : List (Fin 3)) from by decide
    unfold GatherDims.start GatherDims.offCoord
    rw [dif_neg hn, dif_pos hk, Nat.zero_add]
    rfl
  | ⟨1, _⟩ =>
    -- axis 1 is the second kept axis, read by offset axis 1
    have hk : (⟨1, by decide⟩ : Fin 3) ∈ (gatherDimsL L wf).sKept :=
      show (⟨1, by decide⟩ : Fin 3) ∈ (List.finRange 3).filter (· ∉ ([2] ++ [] : List (Fin 3))) from by decide
    have hn : (⟨1, by decide⟩ : Fin 3) ∉ (gatherDimsL L wf).startIndexMap :=
      show (⟨1, by decide⟩ : Fin 3) ∉ ([2] : List (Fin 3)) from by decide
    unfold GatherDims.start GatherDims.offCoord
    rw [dif_neg hn, dif_pos hk, Nat.zero_add]
    rfl
  | ⟨2, _⟩ =>
    -- axis 2 is collapsed and is entry 0 of the start index map
    have hm : (⟨2, by decide⟩ : Fin 3) ∈ (gatherDimsL L wf).startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hm]
    -- the start-indices index read for component 0: the batch position (n, l), then 0 on the index vector's axis
    have hsi : (gatherDimsL L wf).siIdx i
          ⟨List.idxOf (⟨2, by decide⟩ : Fin 3) (gatherDimsL L wf).startIndexMap, List.idxOf_lt_length_iff.2 hm⟩
        = ix3 ⟨(i 2).val, (i 2).isLt⟩ ⟨(i 3).val, (i 3).isLt⟩ ⟨0, Nat.one_pos⟩ := by
      funext b; refine Fin.ext ?_
      match b with
      | ⟨0, _⟩ => rfl
      | ⟨1, _⟩ => rfl
      | ⟨2, _⟩ => rfl
    rw [hsi]
    -- the clamp's upper end: 512 − 1 = 511
    rfl

/-- The gather for window length 256, at (b, ch, n, l): x at (b, ch, idx[n, l, 0] read signed, clamped into [0, 511]). -/
theorem gather256_apply (x : S2x64x512.Idx → α) (idx : IVec S512x256x1 32) (i : S2x64x512x256.Idx) :
    Host.gather gather_S2x64x512_S512x256x1_S2x64x512x256_01_2_n_n_2_2_2641 x idx i
      = x (ix3 ⟨(i 0).val, (i 0).isLt⟩ ⟨(i 1).val, (i 1).isLt⟩
          ⟨min (idx (ix3 ⟨(i 2).val, (i 2).isLt⟩ ⟨(i 3).val, (i 3).isLt⟩ ⟨0, Nat.one_pos⟩)).toInt.toNat 511, by omega⟩) :=
  gatherL_apply _ x idx i

/-- The gather for window length 1024, at (b, ch, n, l): x at (b, ch, idx[n, l, 0] read signed, clamped into [0, 511]). -/
theorem gather1024_apply (x : S2x64x512.Idx → α) (idx : IVec S512x1024x1 32) (i : S2x64x512x1024.Idx) :
    Host.gather gather_S2x64x512_S512x1024x1_S2x64x512x1024_01_2_n_n_2_2_2641 x idx i
      = x (ix3 ⟨(i 0).val, (i 0).isLt⟩ ⟨(i 1).val, (i 1).isLt⟩
          ⟨min (idx (ix3 ⟨(i 2).val, (i 2).isLt⟩ ⟨(i 3).val, (i 3).isLt⟩ ⟨0, Nat.one_pos⟩)).toInt.toNat 511, by omega⟩) :=
  gatherL_apply _ x idx i

/-- The gather for window length 512, at (b, ch, n, l): x at (b, ch, idx[n, l, 0] read signed, clamped into [0, 511]). -/
theorem gather512_apply (x : S2x64x512.Idx → α) (idx : IVec S512x512x1 32) (i : S2x64x512x512.Idx) :
    Host.gather gather_S2x64x512_S512x512x1_S2x64x512x512_01_2_n_n_2_2_2641 x idx i
      = x (ix3 ⟨(i 0).val, (i 0).isLt⟩ ⟨(i 1).val, (i 1).isLt⟩
          ⟨min (idx (ix3 ⟨(i 2).val, (i 2).isLt⟩ ⟨(i 3).val, (i 3).isLt⟩ ⟨0, Nat.one_pos⟩)).toInt.toNat 511, by omega⟩) :=
  gatherL_apply _ x idx i

end Cert.ReferenceIdeal.Win

end
-- ==== Proof.RefWindows.lean ====
/-
  The reference's four results as centred windows.

  For window length L with half = L / 2 the reference forms idx[n, l] = n - half + l as 32-bit words, keeps the mask
  0 ≤ idx < 512 (signed compares), clamps idx into [0, 511], gathers x[b, ch, clamped idx], replaces the entries whose
  mask bit is clear by 0.0 and swaps the axes to (b, n, ch, l).  As n < 512, l < L ≤ 1024 and half ≤ 512 the words never
  wrap: their signed values are the integers n - half + l, the mask says half ≤ n + l < half + 512, and where it holds the
  clamp changes nothing and the gather reads position n + l - half.

  The file has two parts.  The first is about words only: the index word, its mask bit and the index handed to the
  gather, as functions of the naturals (half, n, l), and the one entry of a centred window they describe
  (`window_entry`).  The second reads each of the four stages of the reference at an index, down to those three
  functions, and closes with `window_entry`.
-/
import proofs.«140231_j61091614819052_1_alg».proof.Proof.Gen.ReferenceIdeal.Run
import proofs.«140231_j61091614819052_1_alg».proof.Proof.Gen.ReferenceIdeal.Read
import proofs.«140231_j61091614819052_1_alg».proof.Proof.WindowSpec
import proofs.«140231_j61091614819052_1_alg».proof.Proof.RefGather
import Idealize.ShloMosaic.Lib.Pipeline.Value
import Idealize.ShloMosaic.Lib.ValueIdx
import Idealize.ShloMosaic.Lib.StableHlo.Predicate

set_option maxRecDepth 16384

noncomputable section

open Idealize.ShloMosaic Idealize.ShloMosaic.TcCoe Idealize.SL.Sem Idealize.ShloMosaic.ValueIdx

namespace Cert.ReferenceIdeal.Win

open Cert.ReferenceIdeal Cert.ReferenceIdeal.Gen Cert.ReferenceIdeal.Read
open Idealize.ShloMosaic.StableHlo.Predicate (toInt_ofNat_small)

/-! ## Words -/

section Words

/-- The index word of window n at lane l: n - half + l on 32 bits. -/
private def idxWord (half n l : Nat) : BitVec 32 :=
  IntOp.addi (IntOp.subi (BitVec.ofNat 32 n) (BitVec.ofNat 32 half)) (BitVec.ofNat 32 l)

/-- The mask bit of an index word: 0 ≤ w and w < 512, both compared as signed words. -/
private def maskBit (w : BitVec 32) : BitVec 1 := IntOp.andi (IntOp.cmpi .sge w 0#32) (IntOp.cmpi .slt w 512#32)

/-- The index the gather is given: w clamped into [0, 511], then 512 added if that is negative. -/
private def clampWrap (w : BitVec 32) : BitVec 32 :=
  Scalar.select (IntOp.cmpi .slt (IntOp.minsi 511#32 (IntOp.maxsi 0#32 w)) 0#32)
    (IntOp.addi (IntOp.minsi 511#32 (IntOp.maxsi 0#32 w)) 512#32) (IntOp.minsi 511#32 (IntOp.maxsi 0#32 w))

/-- The index word never wraps: with n < 512, l < 1024 and half ≤ 512 the difference n - half lies in [-512, 512) and
    the sum in [-512, 1535), both far inside the signed range, so the signed value is the integer n + l - half. -/
private theorem idxWord_toInt (half n l : Nat) (hn : n < 512) (hl : l < 1024) (hh : half ≤ 512) :
    (idxWord half n l).toInt = (n : Int) + (l : Int) - (half : Int) := by
  unfold idxWord IntOp.addi IntOp.subi
  rw [BitVec.toInt_add, BitVec.toInt_sub, toInt_ofNat_small n (by omega), toInt_ofNat_small half (by omega),
    toInt_ofNat_small l (by omega)]
  rw [Int.bmod_eq_of_le_mul_two (x := (n : Int) - (half : Int)) (by omega) (by omega)]
  rw [Int.bmod_eq_of_le_mul_two (by omega) (by omega)]
  omega

/-- The mask bit of a word is set exactly when its signed value lies in [0, 512): `sge` and `slt` compare signed
    values, and the conjunction of two one-bit words is 1 only when both are. -/
private theorem maskBit_iff (w : BitVec 32) : maskBit w = 1#1 ↔ 0 ≤ w.toInt ∧ w.toInt < 512 := by
  have h0 : (0#32 : BitVec 32).toInt = 0 := by decide
  have h512 : (512#32 : BitVec 32).toInt = 512 := by decide
  unfold maskBit IntOp.andi IntOp.cmpi
  simp only [BitVec.sle, BitVec.slt, h0, h512]
  by_cases ha : 0 ≤ w.toInt <;> by_cases hb : w.toInt < 512 <;> simp [ha, hb]

/-- A word whose signed value lies in [0, 512) passes the clamp into [0, 511] unchanged (the maximum with 0 and the
    minimum with 511 both return it), is not negative, and so is not moved by the wrap of negative indices. -/
private theorem clampWrap_of_mem (w : BitVec 32) (h0 : 0 ≤ w.toInt) (h1 : w.toInt < 512) : clampWrap w = w := by
  have e0 : (0#32 : BitVec 32).toInt = 0 := by decide
  have e511 : (511#32 : BitVec 32).toInt = 511 := by decide
  have hmax : IntOp.maxsi 0#32 w = w := by
    unfold IntOp.maxsi
    rw [if_neg]
    simp only [BitVec.slt, e0, decide_eq_true_eq]
    omega
  have hmin : IntOp.minsi 511#32 w = w := by
    unfold IntOp.minsi
    rw [if_neg]
    simp only [BitVec.slt, e511, decide_eq_true_eq]
    omega
  have hlt : IntOp.cmpi .slt w 0#32 = 0#1 := by
    unfold IntOp.cmpi
    have : w.slt 0#32 = false := by
      simp only [BitVec.slt, e0, decide_eq_false_iff_not]
      omega
    simp only [this]
    rfl
  unfold clampWrap
  rw [hmax, hmin, hlt, select_zero]

variable {α : Type}

/-- One entry of a result from the three things the reference computes for it: the mask bit, the gathered entry and the
    filling value.  With the mask set, half ≤ n + l < half + 512, the word passes the clamp and the wrap unchanged and
    the gathered position min (n + l - half) 511 is n + l - half; with it clear the filling value is taken, whatever
    the gather read. -/
private theorem window_entry (half L : Nat) (hh : half ≤ 512) (hL : L ≤ 1024) (z : α)
    (x : (⟨3, ![2, 64, 512]⟩ : Shape).Idx → α) (b : Fin 2) (n : Fin 512) (ch : Fin 64) (l : Fin L) :
    Scalar.select (maskBit (idxWord half n.val l.val))
        (x (ix3 b ch ⟨min (clampWrap (idxWord half n.val l.val)).toInt.toNat 511, by omega⟩)) z
      = Cert.Window.centered half L z x (ix4 b n ch l) := by
  have hn : n.val < 512 := n.isLt
  have hl : l.val < 1024 := lt_of_lt_of_le l.isLt hL
  have hw := idxWord_toInt half n.val l.val hn hl hh
  unfold Cert.Window.centered
  by_cases h : half ≤ n.val + l.val ∧ n.val + l.val < half + 512
  · have hm : maskBit (idxWord half n.val l.val) = 1#1 := (maskBit_iff _).2 (by omega)
    have hc : clampWrap (idxWord half n.val l.val) = idxWord half n.val l.val :=
      clampWrap_of_mem _ (by omega) (by omega)
    rw [hm, select_one]
    refine Eq.trans ?_ (dif_pos h).symm
    refine congrArg x (funext fun a => ?_)
    match a with
    | ⟨0, _⟩ => rfl
    | ⟨1, _⟩ => rfl
    | ⟨2, _⟩ =>
      refine Fin.ext ?_
      show min (clampWrap (idxWord half n.val l.val)).toInt.toNat 511 = n.val + l.val - half
      rw [hc, hw]
      omega
  · have hm : maskBit (idxWord half n.val l.val) = 0#1 :=
      eq_zero_of_ne_one (fun h1 => h (by have := (maskBit_iff _).1 h1; omega))
    rw [hm, select_zero]
    refine Eq.symm (dif_neg ?_)
    exact h

end Words

/-! ## Result 0: window length 256, half 128 (buffers v0 to v24) -/

section Result0
variable {F : FTy → Type} [FloatOps F]

/-- The index word at (n, l): the row iota minus 128, plus the lane iota. -/
private theorem word0_at (i : S512x256.Idx) : val_main_v8 (F := F) i = idxWord 128 (i 0).val (i 1).val := by
  simp only [val_main_v8_apply, val_main_v6_apply, val_main_v3_apply, val_main_v1_apply, val_main_v0_apply,
    val_main_v2_apply, val_main_c_apply, val_main_v7_apply, val_main_v5_apply, val_main_v4_apply]
  rfl

/-- The mask at (n, l). -/
private theorem mask0_at (i : S512x256.Idx) : val_main_v13 (F := F) i = maskBit (idxWord 128 (i 0).val (i 1).val) := by
  simp only [val_main_v13_apply, val_main_v10_apply, val_main_v12_apply, val_main_v9_apply, val_main_c_0_apply,
    val_main_v11_apply, val_main_c_1_apply, word0_at]
  rfl

/-- The index handed to the gather at (n, l). -/
private theorem index0_at (i : S512x256.Idx) :
    val_main_v19 (F := F) i = clampWrap (idxWord 128 (i 0).val (i 1).val) := by
  simp only [val_main_v19_apply, val_main_v16_apply, val_main_v18_apply, val_main_v14_apply, val_main_call0_v4_apply,
    val_main_call0_v3_apply, val_main_c_3_apply, val_main_call0_v2_apply, val_main_call0_v1_apply,
    val_main_call0_v0_apply, val_main_c_2_apply, val_main_v15_apply, val_main_c_4_apply, val_main_v17_apply,
    val_main_c_5_apply, word0_at]
  rfl

end Result0

/-- Result 0 at (b, n, ch, l): the transpose reads the select at (b, ch, n, l); its condition is the mask at (n, l), its
    first operand the gather, which reads x at (b, ch, the clamped index word of (n, l)), its second the constant 0. -/
private theorem ref0_at (x : (⟨S2x64x512, .f32⟩ : BufTy).Contents (Elt Ideal)) (b : Fin 2) (n : Fin 512) (ch : Fin 64)
    (l : Fin 256) :
    val_main_v24 (F := Ideal) x (ix4 b n ch l) = Cert.Window.centered 128 256 (0 : EReal) x (ix4 b n ch l) := by
  have hm : val_main_call1_v0 (F := Ideal) (idx_main_v24 (ix4 b n ch l)) = maskBit (idxWord 128 n.val l.val) := by
    rw [val_main_call1_v0_apply, val_main_v22_apply, mask0_at]
  have hz : val_main_call1_v1 (F := Ideal) (idx_main_v24 (ix4 b n ch l)) = (0 : EReal) := by
    rw [val_main_call1_v1_apply, val_main_cst_apply]
    exact Ideal.ofBits_zero_f32
  have hi : val_main_v20 (F := Ideal) (ix3 n l ⟨0, Nat.one_pos⟩) = clampWrap (idxWord 128 n.val l.val) := by
    rw [val_main_v20_apply, index0_at]
  have hg : val_main_v21 (F := Ideal) x (idx_main_v24 (ix4 b n ch l))
      = x (ix3 b ch ⟨min (clampWrap (idxWord 128 n.val l.val)).toInt.toNat 511, by omega⟩) := by
    unfold val_main_v21
    refine (gather256_apply x _ _).trans (congrArg x (funext fun a => ?_))
    match a with
    | ⟨0, _⟩ => rfl
    | ⟨1, _⟩ => rfl
    | ⟨2, _⟩ => exact Fin.ext (congrArg (fun w : BitVec 32 => min w.toInt.toNat 511) hi)
  rw [val_main_v24_apply, val_main_v23_apply, hm, hz, hg]
  exact window_entry 128 256 (by omega) (by omega) (0 : EReal) x b n ch l

/-- Result 0: the reference's stage for `main_v24` is the window of length 256 centred at each position, zero outside the sequence. -/
theorem ref0_eq (x : (⟨S2x64x512, .f32⟩ : BufTy).Contents (Elt Ideal)) :
    val_main_v24 (F := Ideal) x = Cert.Window.centered 128 256 (0 : EReal) x := by
  funext i
  rw [eq_ix4 i]
  exact ref0_at x _ _ _ _

/-! ## Result 1: window length 1024, half 512 (buffers v25 to v49) -/

section Result1
variable {F : FTy → Type} [FloatOps F]

/-- The index word at (n, l): the row iota minus 512, plus the lane iota. -/
private theorem word1_at (i : S512x1024.Idx) : val_main_v33 (F := F) i = idxWord 512 (i 0).val (i 1).val := by
  simp only [val_main_v33_apply, val_main_v31_apply, val_main_v28_apply, val_main_v26_apply, val_main_v25_apply,
    val_main_v27_apply, val_main_c_6_apply, val_main_v32_apply, val_main_v30_apply, val_main_v29_apply]
  rfl

/-- The mask at (n, l). -/
private theorem mask1_at (i : S512x1024.Idx) : val_main_v38 (F := F) i = maskBit (idxWord 512 (i 0).val (i 1).val) := by
  simp only [val_main_v38_apply, val_main_v35_apply, val_main_v37_apply, val_main_v34_apply, val_main_c_7_apply,
    val_main_v36_apply, val_main_c_8_apply, word1_at]
  rfl

/-- The index handed to the gather at (n, l). -/
private theorem index1_at (i : S512x1024.Idx) :
    val_main_v44 (F := F) i = clampWrap (idxWord 512 (i 0).val (i 1).val) := by
  simp only [val_main_v44_apply, val_main_v41_apply, val_main_v43_apply, val_main_v39_apply, val_main_call2_v4_apply,
    val_main_call2_v3_apply, val_main_c_10_apply, val_main_call2_v2_apply, val_main_call2_v1_apply,
    val_main_call2_v0_apply, val_main_c_9_apply, val_main_v40_apply, val_main_c_11_apply, val_main_v42_apply,
    val_main_c_12_apply, word1_at]
  rfl

end Result1

/-- Result 1 at (b, n, ch, l), read as result 0 is. -/
private theorem ref1_at (x : (⟨S2x64x512, .f32⟩ : BufTy).Contents (Elt Ideal)) (b : Fin 2) (n : Fin 512) (ch : Fin 64)
    (l : Fin 1024) :
    val_main_v49 (F := Ideal) x (ix4 b n ch l) = Cert.Window.centered 512 1024 (0 : EReal) x (ix4 b n ch l) := by
  have hm : val_main_call3_v0 (F := Ideal) (idx_main_v49 (ix4 b n ch l)) = maskBit (idxWord 512 n.val l.val) := by
    rw [val_main_call3_v0_apply, val_main_v47_apply, mask1_at]
  have hz : val_main_call3_v1 (F := Ideal) (idx_main_v49 (ix4 b n ch l)) = (0 : EReal) := by
    rw [val_main_call3_v1_apply, val_main_cst_13_apply]
    exact Ideal.ofBits_zero_f32
  have hi : val_main_v45 (F := Ideal) (ix3 n l ⟨0, Nat.one_pos⟩) = clampWrap (idxWord 512 n.val l.val) := by
    rw [val_main_v45_apply, index1_at]
  have hg : val_main_v46 (F := Ideal) x (idx_main_v49 (ix4 b n ch l))
      = x (ix3 b ch ⟨min (clampWrap (idxWord 512 n.val l.val)).toInt.toNat 511, by omega⟩) := by
    unfold val_main_v46
    refine (gather1024_apply x _ _).trans (congrArg x (funext fun a => ?_))
    match a with
    | ⟨0, _⟩ => rfl
    | ⟨1, _⟩ => rfl
    | ⟨2, _⟩ => exact Fin.ext (congrArg (fun w : BitVec 32 => min w.toInt.toNat 511) hi)
  rw [val_main_v49_apply, val_main_v48_apply, hm, hz, hg]
  exact window_entry 512 1024 (by omega) (by omega) (0 : EReal) x b n ch l

/-- Result 1: the reference's stage for `main_v49` is the window of length 1024 centred at each position, zero outside the sequence. -/
theorem ref1_eq (x : (⟨S2x64x512, .f32⟩ : BufTy).Contents (Elt Ideal)) :
    val_main_v49 (F := Ideal) x = Cert.Window.centered 512 1024 (0 : EReal) x := by
  funext i
  rw [eq_ix4 i]
  exact ref1_at x _ _ _ _

/-! ## Result 2: window length 512, half 256 (buffers v50 to v74) -/

section Result2
variable {F : FTy → Type} [FloatOps F]

/-- The index word at (n, l): the row iota minus 256, plus the lane iota. -/
private theorem word2_at (i : S512x512.Idx) : val_main_v58 (F := F) i = idxWord 256 (i 0).val (i 1).val := by
  simp only [val_main_v58_apply, val_main_v56_apply, val_main_v53_apply, val_main_v51_apply, val_main_v50_apply,
    val_main_v52_apply, val_main_c_14_apply, val_main_v57_apply, val_main_v55_apply, val_main_v54_apply]
  rfl

/-- The mask at (n, l). -/
private theorem mask2_at (i : S512x512.Idx) : val_main_v63 (F := F) i = maskBit (idxWord 256 (i 0).val (i 1).val) := by
  simp only [val_main_v63_apply, val_main_v60_apply, val_main_v62_apply, val_main_v59_apply, val_main_c_15_apply,
    val_main_v61_apply, val_main_c_16_apply, word2_at]
  rfl

/-- The index handed to the gather at (n, l). -/
private theorem index2_at (i : S512x512.Idx) :
    val_main_v69 (F := F) i = clampWrap (idxWord 256 (i 0).val (i 1).val) := by
  simp only [val_main_v69_apply, val_main_v66_apply, val_main_v68_apply, val_main_v64_apply, val_main_call4_v4_apply,
    val_main_call4_v3_apply, val_main_c_18_apply, val_main_call4_v2_apply, val_main_call4_v1_apply,
    val_main_call4_v0_apply, val_main_c_17_apply, val_main_v65_apply, val_main_c_19_apply, val_main_v67_apply,
    val_main_c_20_apply, word2_at]
  rfl

end Result2

/-- Result 2 at (b, n, ch, l), read as result 0 is. -/
private theorem ref2_at (x : (⟨S2x64x512, .f32⟩ : BufTy).Contents (Elt Ideal)) (b : Fin 2) (n : Fin 512) (ch : Fin 64)
    (l : Fin 512) :
    val_main_v74 (F := Ideal) x (ix4 b n ch l) = Cert.Window.centered 256 512 (0 : EReal) x (ix4 b n ch l) := by
  have hm : val_main_call5_v0 (F := Ideal) (idx_main_v74 (ix4 b n ch l)) = maskBit (idxWord 256 n.val l.val) := by
    rw [val_main_call5_v0_apply, val_main_v72_apply, mask2_at]
  have hz : val_main_call5_v1 (F := Ideal) (idx_main_v74 (ix4 b n ch l)) = (0 : EReal) := by
    rw [val_main_call5_v1_apply, val_main_cst_21_apply]
    exact Ideal.ofBits_zero_f32
  have hi : val_main_v70 (F := Ideal) (ix3 n l ⟨0, Nat.one_pos⟩) = clampWrap (idxWord 256 n.val l.val) := by
    rw [val_main_v70_apply, index2_at]
  have hg : val_main_v71 (F := Ideal) x (idx_main_v74 (ix4 b n ch l))
      = x (ix3 b ch ⟨min (clampWrap (idxWord 256 n.val l.val)).toInt.toNat 511, by omega⟩) := by
    unfold val_main_v71
    refine (gather512_apply x _ _).trans (congrArg x (funext fun a => ?_))
    match a with
    | ⟨0, _⟩ => rfl
    | ⟨1, _⟩ => rfl
    | ⟨2, _⟩ => exact Fin.ext (congrArg (fun w : BitVec 32 => min w.toInt.toNat 511) hi)
  rw [val_main_v74_apply, val_main_v73_apply, hm, hz, hg]
  exact window_entry 256 512 (by omega) (by omega) (0 : EReal) x b n ch l

/-- Result 2: the reference's stage for `main_v74` is the window of length 512 centred at each position, zero outside the sequence. -/
theorem ref2_eq (x : (⟨S2x64x512, .f32⟩ : BufTy).Contents (Elt Ideal)) :
    val_main_v74 (F := Ideal) x = Cert.Window.centered 256 512 (0 : EReal) x := by
  funext i
  rw [eq_ix4 i]
  exact ref2_at x _ _ _ _

/-! ## Result 3: window length 512, half 256 (buffers v75 to v99) -/

section Result3
variable {F : FTy → Type} [FloatOps F]

/-- The index word at (n, l): the row iota minus 256, plus the lane iota. -/
private theorem word3_at (i : S512x512.Idx) : val_main_v83 (F := F) i = idxWord 256 (i 0).val (i 1).val := by
  simp only [val_main_v83_apply, val_main_v81_apply, val_main_v78_apply, val_main_v76_apply, val_main_v75_apply,
    val_main_v77_apply, val_main_c_22_apply, val_main_v82_apply, val_main_v80_apply, val_main_v79_apply]
  rfl

/-- The mask at (n, l). -/
private theorem mask3_at (i : S512x512.Idx) : val_main_v88 (F := F) i = maskBit (idxWord 256 (i 0).val (i 1).val) := by
  simp only [val_main_v88_apply, val_main_v85_apply, val_main_v87_apply, val_main_v84_apply, val_main_c_23_apply,
    val_main_v86_apply, val_main_c_24_apply, word3_at]
  rfl

/-- The index handed to the gather at (n, l). -/
private theorem index3_at (i : S512x512.Idx) :
    val_main_v94 (F := F) i = clampWrap (idxWord 256 (i 0).val (i 1).val) := by
  simp only [val_main_v94_apply, val_main_v91_apply, val_main_v93_apply, val_main_v89_apply, val_main_call6_v4_apply,
    val_main_call6_v3_apply, val_main_c_26_apply, val_main_call6_v2_apply, val_main_call6_v1_apply,
    val_main_call6_v0_apply, val_main_c_25_apply, val_main_v90_apply, val_main_c_27_apply, val_main_v92_apply,
    val_main_c_28_apply, word3_at]
  rfl

end Result3

/-- Result 3 at (b, n, ch, l), read as result 0 is. -/
private theorem ref3_at (x : (⟨S2x64x512, .f32⟩ : BufTy).Contents (Elt Ideal)) (b : Fin 2) (n : Fin 512) (ch : Fin 64)
    (l : Fin 512) :
    val_main_v99 (F := Ideal) x (ix4 b n ch l) = Cert.Window.centered 256 512 (0 : EReal) x (ix4 b n ch l) := by
  have hm : val_main_call7_v0 (F := Ideal) (idx_main_v99 (ix4 b n ch l)) = maskBit (idxWord 256 n.val l.val) := by
    rw [val_main_call7_v0_apply, val_main_v97_apply, mask3_at]
  have hz : val_main_call7_v1 (F := Ideal) (idx_main_v99 (ix4 b n ch l)) = (0 : EReal) := by
    rw [val_main_call7_v1_apply, val_main_cst_29_apply]
    exact Ideal.ofBits_zero_f32
  have hi : val_main_v95 (F := Ideal) (ix3 n l ⟨0, Nat.one_pos⟩) = clampWrap (idxWord 256 n.val l.val) := by
    rw [val_main_v95_apply, index3_at]
  have hg : val_main_v96 (F := Ideal) x (idx_main_v99 (ix4 b n ch l))
      = x (ix3 b ch ⟨min (clampWrap (idxWord 256 n.val l.val)).toInt.toNat 511, by omega⟩) := by
    unfold val_main_v96
    refine (gather512_apply x _ _).trans (congrArg x (funext fun a => ?_))
    match a with
    | ⟨0, _⟩ => rfl
    | ⟨1, _⟩ => rfl
    | ⟨2, _⟩ => exact Fin.ext (congrArg (fun w : BitVec 32 => min w.toInt.toNat 511) hi)
  rw [val_main_v99_apply, val_main_v98_apply, hm, hz, hg]
  exact window_entry 256 512 (by omega) (by omega) (0 : EReal) x b n ch l

/-- Result 3: the reference's stage for `main_v99` is the window of length 512 centred at each position, zero outside the sequence. -/
theorem ref3_eq (x : (⟨S2x64x512, .f32⟩ : BufTy).Contents (Elt Ideal)) :
    val_main_v99 (F := Ideal) x = Cert.Window.centered 256 512 (0 : EReal) x := by
  funext i
  rw [eq_ix4 i]
  exact ref3_at x _ _ _ _

end Cert.ReferenceIdeal.Win

end
-- ==== Proof.lean ====
/-
  The certificate: four sliding-window extractions of a zero-padded sequence, kernel against reference.

  For each window length L ∈ {256, 1024, 512, 512} (half = L / 2) the kernel pads the sequence x : [2, 64, 512] with
  `half` zeros in front and `L − 1 − half` behind and copies, for every position n and lane l, entry n + l of the padded
  sequence into result (b, n, ch, l); the reference gathers x at the clamped index n − half + l and masks the entries
  whose index falls outside [0, 512) to zero.  Both are the one function
      (b, n, ch, l) ↦ x[b, ch, n + l − half]  if half ≤ n + l < half + 512,  0 otherwise
  of the argument; no arithmetic is done on the entries, so nothing of the precondition is used for the values.
  The kernel programs' frames are the generated ones; the reference's frame is its generated run with the results
  dropped; the idealization rewrote nothing, so there is nothing to preserve.
-/
import proofs.«140231_j61091614819052_1_alg».proof.Defs
import proofs.«140231_j61091614819052_1_alg».proof.Proof.Gen.Kernel
import proofs.«140231_j61091614819052_1_alg».proof.Proof.Gen.Kernel.Frame
import proofs.«140231_j61091614819052_1_alg».proof.Proof.Gen.KernelIdeal
import proofs.«140231_j61091614819052_1_alg».proof.Proof.Gen.KernelIdeal.Frame
import proofs.«140231_j61091614819052_1_alg».proof.Proof.Gen.ReferenceIdeal
import proofs.«140231_j61091614819052_1_alg».proof.Proof.Gen.ReferenceIdeal.Run
import proofs.«140231_j61091614819052_1_alg».proof.Proof.Gen.ReferenceIdeal.Read
import proofs.«140231_j61091614819052_1_alg».proof.Proof.Gen.Pre_finite_inputs
import proofs.«140231_j61091614819052_1_alg».proof.Proof.KernelValue
import proofs.«140231_j61091614819052_1_alg».proof.Proof.RefWindows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- Both idealized programs end with result k at the centred window of length L_k of the argument, zero outside the
    sequence: the kernel by its padded copies slid along (`run_centered`), the reference by its masked clamped gather
    (`ref0_eq` … `ref3_eq`), from arguments that agree. -/
theorem algebraic : Cert.algebraic_KernelIdeal_ReferenceIdeal := by
  intro m ρ m' ρ' _ hagree
  refine ⟨_, _, _, _, Cert.KernelIdeal.Win.run_centered m ρ, ?_⟩
  refine (θ_run Cert.ReferenceIdeal.defs _ _).mono (fun _ h c => ⟨?_, ?_, ?_, ?_, (h c).2.2.2.2⟩)
    (Cert.ReferenceIdeal.Value.run (F := Ideal) m' ρ')
  · rw [(h c).1, Cert.ReferenceIdeal.Read.val_main_v24_eq, Cert.ReferenceIdeal.Win.ref0_eq, hagree c]
  · rw [(h c).2.1, Cert.ReferenceIdeal.Read.val_main_v49_eq, Cert.ReferenceIdeal.Win.ref1_eq, hagree c]
  · rw [(h c).2.2.1, Cert.ReferenceIdeal.Read.val_main_v74_eq, Cert.ReferenceIdeal.Win.ref2_eq, hagree c]
  · rw [(h c).2.2.2.1, Cert.ReferenceIdeal.Read.val_main_v99_eq, Cert.ReferenceIdeal.Win.ref3_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
